-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2049x8 : Shape := ⟨3, ![4096, 2049, 8]⟩
abbrev S_ : Shape := ⟨0, ![]⟩
abbrev S4096x1x1 : Shape := ⟨3, ![4096, 1, 1]⟩
abbrev S4096 : Shape := ⟨1, ![4096]⟩

class Facts : Prop where
  bcast_S_S4096x2049x8 : S_.BroadcastsInDim S4096x2049x8 (![] : Fin 0 → Fin S4096x2049x8.rank)
  reducesTo_S4096x2049x8_S_d0_1_2 : S4096x2049x8.ReducesTo [0, 1, 2] S_
  h_S_ : 0 < S_.numel
  slices_S4096x2049x8_S4096x1x1_0_0_0 : S4096x2049x8.Slices ![0, 0, 0] S4096x1x1
  shapeCasts_S4096x1x1_S4096 : S4096x1x1.ShapeCasts S4096
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x2049x8 .f32) (main_arg1 : FVec F S4096x2049x8 .f32) : IVec S_ 1 :=
  let main_v0 : FVec F S4096x2049x8 .f32 := Host.absf main_arg0
  let main_cst : FVec F S_ .f32 := constant S_ .f32 0x7F800000#32
  let main_v1 : FVec F S4096x2049x8 .f32 := broadcastInDim S4096x2049x8 ![] bcast_S_S4096x2049x8 main_cst
  let main_v2 : IVec S4096x2049x8 1 := cmpf .olt main_v0 main_v1
  let main_c : IVec S_ 1 := constantI S_ 1 1#1
  let main_v3 : IVec S_ 1 := (fun x v => Host.reduce IntOp.andi x v reducesTo_S4096x2049x8_S_d0_1_2 h_S_) main_v2 main_c
  let main_v4 : FVec F S4096x2049x8 .f32 := Host.absf main_arg1
  let main_cst_0 : FVec F S_ .f32 := constant S_ .f32 0x7F800000#32
  let main_v5 : FVec F S4096x2049x8 .f32 := broadcastInDim S4096x2049x8 ![] bcast_S_S4096x2049x8 main_cst_0
  let main_v6 : IVec S4096x2049x8 1 := cmpf .olt main_v4 main_v5
  let main_c_1 : IVec S_ 1 := constantI S_ 1 1#1
  let main_v7 : IVec S_ 1 := (fun x v => Host.reduce IntOp.andi x v reducesTo_S4096x2049x8_S_d0_1_2 h_S_) main_v6 main_c_1
  let main_v8 : IVec S_ 1 := andi main_v3 main_v7
  let main_v9 : FVec F S4096x1x1 .f32 := (extractStridedSlice S4096x1x1 ![0, 0, 0] · slices_S4096x2049x8_S4096x1x1_0_0_0) main_arg1
  let main_v10 : FVec F S4096 .f32 := shapeCast S4096 main_v9 shapeCasts_S4096x1x1_S4096
  let main_cst_2 : FVec F S_ .f32 := constant S_ .f32 0x45000000#32
  let main_v11 : FVec F S4096 .f32 := broadcastInDim S4096 ![] bcast_S_S4096 main_cst_2
  let main_v12 : IVec S4096 1 := cmpf .ole main_v10 main_v11
  let main_c_3 : IVec S_ 1 := constantI S_ 1 1#1
  let main_v13 : IVec S_ 1 := (fun x v => Host.reduce IntOp.andi x v reducesTo_S4096_S_d0 h_S_) main_v12 main_c_3
  let main_v14 : IVec S_ 1 := andi main_v8 main_v13
  main_v14
-- ==== Kernel.lean ====
abbrev S4096x2049x8 : Shape := ⟨3, ![4096, 2049, 8]⟩
abbrev S4096x16392 : Shape := ⟨2, ![4096, 16392]⟩
abbrev S16392 : Shape := ⟨1, ![16392]⟩
abbrev S_ : Shape := ⟨0, ![]⟩
abbrev S1x16392 : Shape := ⟨2, ![1, 16392]⟩
abbrev S16x128 : Shape := ⟨2, ![16, 128]⟩
abbrev S128x16392 : Shape := ⟨2, ![128, 16392]⟩
abbrev S8x128 : Shape := ⟨2, ![8, 128]⟩
abbrev S128x1 : Shape := ⟨2, ![128, 1]⟩
abbrev S128 : Shape := ⟨1, ![128]⟩
abbrev S1x128 : Shape := ⟨2, ![1, 128]⟩
abbrev S1 : Shape := ⟨1, ![1]⟩
abbrev S1x1 : Shape := ⟨2, ![1, 1]⟩

abbrev nBuf : Space → Nat
  | .hbm => 61
  | .vmem => 11
  | .smem => 0
  | _ => 0

abbrev bufTy : (tb : Table) → Fin (tcTables nBuf tb) → BufTy
  | .hbm, ⟨0, _⟩ => ⟨S4096x2049x8, .f32⟩
  | .hbm, ⟨1, _⟩ => ⟨S4096x2049x8, .f32⟩
  | .hbm, ⟨2, _⟩ => ⟨S4096x16392, .f32⟩
  | .hbm, ⟨3, _⟩ => ⟨S4096x16392, .f32⟩
  | .hbm, ⟨4, _⟩ => ⟨S16392, .i32⟩
  | .hbm, ⟨5, _⟩ => ⟨S_, .i32⟩
  | .hbm, ⟨6, _⟩ => ⟨S16392, .i32⟩
  | .hbm, ⟨7, _⟩ => ⟨S16392, .i1⟩
  | .hbm, ⟨8, _⟩ => ⟨S_, .i32⟩
  | .hbm, ⟨9, _⟩ => ⟨S_, .i32⟩
  | .hbm, ⟨10, _⟩ => ⟨S16392, .i32⟩
  | .hbm, ⟨11, _⟩ => ⟨S16392, .i32⟩
  | .hbm, ⟨12, _⟩ => ⟨S_, .i32⟩
  | .hbm, ⟨13, _⟩ => ⟨S16392, .i32⟩
  | .hbm, ⟨14, _⟩ => ⟨S16392, .i32⟩
  | .hbm, ⟨15, _⟩ => ⟨S_, .i32⟩
  | .hbm, ⟨16, _⟩ => ⟨S_, .i32⟩
  | .hbm, ⟨17, _⟩ => ⟨S16392, .i32⟩
  | .hbm, ⟨18, _⟩ => ⟨S16392, .i32⟩
  | .hbm, ⟨19, _⟩ => ⟨S16392, .i32⟩
  | .hbm, ⟨20, _⟩ => ⟨S_, .i32⟩
  | .hbm, ⟨21, _⟩ => ⟨S16392, .i32⟩
  | .hbm, ⟨22, _⟩ => ⟨S16392, .i1⟩
  | .hbm, ⟨23, _⟩ => ⟨S16392, .i32⟩
  | .hbm, ⟨24, _⟩ => ⟨S16392, .i32⟩
  | .hbm, ⟨25, _⟩ => ⟨S_, .i32⟩
  | .hbm, ⟨26, _⟩ => ⟨S16392, .i32⟩
  | .hbm, ⟨27, _⟩ => ⟨S16392, .i1⟩
  | .hbm, ⟨28, _⟩ => ⟨S16392, .i1⟩
  | .hbm, ⟨29, _⟩ => ⟨S_, .i32⟩
  | .hbm, ⟨30, _⟩ => ⟨S16392, .i32⟩
  | .hbm, ⟨31, _⟩ => ⟨S16392, .i32⟩
  | .hbm, ⟨32, _⟩ => ⟨S16392, .i32⟩
  | .hbm, ⟨33, _⟩ => ⟨S_, .i32⟩
  | .hbm, ⟨34, _⟩ => ⟨S16392, .i32⟩
  | .hbm, ⟨35, _⟩ => ⟨S16392, .i32⟩
  | .hbm, ⟨36, _⟩ => ⟨S1x16392, .i32⟩
  | .hbm, ⟨37, _⟩ => ⟨S16x128, .f32⟩
  | .hbm, ⟨38, _⟩ => ⟨S16x128, .f32⟩
  | .hbm, ⟨39, _⟩ => ⟨S16x128, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S1x16392, .i32⟩
  | .local _ .vmem, ⟨1, _⟩ => ⟨S128x16392, .f32⟩
  | .local _ .vmem, ⟨2, _⟩ => ⟨S128x16392, .f32⟩
  | .local _ .vmem, ⟨3, _⟩ => ⟨S128x16392, .f32⟩
  | .local _ .vmem, ⟨4, _⟩ => ⟨S128x16392, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | _, _ => ⟨S4096x2049x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_c : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_0 : Ref sig .tc := ⟨.hbm, 29, rfl⟩
abbrev main_call1_v12 : Ref sig .tc := ⟨.hbm, 30, rfl⟩
abbrev main_call1_v13 : Ref sig .tc := ⟨.hbm, 31, rfl⟩
abbrev main_v8 : Ref sig .tc := ⟨.hbm, 32, rfl⟩
abbrev main_c_3 : Ref sig .tc := ⟨.hbm, 33, rfl⟩
abbrev main_call2_v0 : Ref sig .tc := ⟨.hbm, 34, rfl⟩
abbrev main_v9 : Ref sig .tc := ⟨.hbm, 35, rfl⟩
abbrev main_v10 : Ref sig .tc := ⟨.hbm, 36, rfl⟩
abbrev main_v11_0 : Ref sig .tc := ⟨.hbm, 37, rfl⟩
abbrev main_v11_1 : Ref sig .tc := ⟨.hbm, 38, rfl⟩
abbrev main_v11_2 : Ref sig .tc := ⟨.hbm, 39, rfl⟩
abbrev main_cst : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_cst_5 : Ref sig .tc := ⟨.hbm, 44, rfl⟩
abbrev main_v14 : Ref sig .tc := ⟨.hbm, 45, rfl⟩
abbrev main_cst_6 : Ref sig .tc := ⟨.hbm, 46, rfl⟩
abbrev main_v15 : Ref sig .tc := ⟨.hbm, 47, rfl⟩
abbrev main_cst_7 : Ref sig .tc := ⟨.hbm, 48, rfl⟩
abbrev main_v16 : Ref sig .tc := ⟨.hbm, 49, rfl⟩
abbrev main_v17 : Ref sig .tc := ⟨.hbm, 50, rfl⟩
abbrev main_cst_8 : Ref sig .tc := ⟨.hbm, 51, rfl⟩
abbrev main_v18 : Ref sig .tc := ⟨.hbm, 52, rfl⟩
abbrev main_cst_9 : Ref sig .tc := ⟨.hbm, 53, rfl⟩
abbrev main_v19 : Ref sig .tc := ⟨.hbm, 54, rfl⟩
abbrev main_cst_10 : Ref sig .tc := ⟨.hbm, 55, rfl⟩
abbrev main_v20 : Ref sig .tc := ⟨.hbm, 56, rfl⟩
abbrev main_cst_11 : Ref sig .tc := ⟨.hbm, 57, rfl⟩
abbrev main_call3_v0 : Ref sig .tc := ⟨.hbm, 58, rfl⟩
abbrev main_v21 : Ref sig .tc := ⟨.hbm, 59, rfl⟩
abbrev main_v22 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x16392 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x16392 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x16392 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4096x2049x8_S4096x16392 : S4096x2049x8.ShapeCasts S4096x16392
  bcast_S_S16392 : S_.BroadcastsInDim S16392 (![] : Fin 0 → Fin S16392.rank)
  shapeCasts_S16392_S1x16392 : S16392.ShapeCasts S1x16392
  inb_S128x16392_S128x16392_0_0 : ∀ a, (![0, 0] : Fin 2 → Nat) a + S128x16392.size a ≤ S128x16392.size a
  h_S128x16392 : 0 < S128x16392.numel
  shapeCasts_S128x16392_S128x16392 : S128x16392.ShapeCasts S128x16392
  slices_S128x16392_o0_0_S128x1 : S128x16392.Slices ![0, 0] S128x1
  shapeCasts_S128x1_S128 : S128x1.ShapeCasts S128
  inb_S1x16392_S1x16392_0_0 : ∀ a, (![0, 0] : Fin 2 → Nat) a + S1x16392.size a ≤ S1x16392.size a
  h_S1x16392 : 0 < S1x16392.numel
  shapeCasts_S1x16392_S1x16392 : S1x16392.ShapeCasts S1x16392
  shapeCasts_S128_S128x1 : S128.ShapeCasts S128x1
  broadcasts_S1x16392_S128x16392 : S1x16392.Broadcasts S128x16392
  broadcasts_S128x1_S128x16392 : S128x1.Broadcasts S128x16392
  reduces_S128x16392_S128 : S128x16392.Reduces [1] S128
  shapeCasts_S128_S1x128 : S128.ShapeCasts S1x128
  reduces_S1x128_S1 : S1x128.Reduces [1] S1
  shapeCasts_S1_S1x1 : S1.ShapeCasts S1x1
  inpos_S1x1_p0_0 : ∀ a, (![0, 0] : Fin 2 → Nat) a < S1x1.size a
  natLt_1_32 : 1 < 32
  inb_S8x128_S8x128_0_0 : ∀ a, (![0, 0] : Fin 2 → Nat) a + S8x128.size a ≤ S8x128.size a
  h_S8x128 : 0 < S8x128.numel
  iota_S8x128_d0_w32 : S8x128.Iotas .tc 32 [0]
  iota_S8x128_d1_w32 : S8x128.Iotas .tc 32 [1]
  shapeCasts_S8x128_S8x128 : S8x128.ShapeCasts S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x16392.size a ≤ S1x16392.size a
  hwx0_0 : ∀ i : grid0.Coords, EltTy.bits .i32 = 32 ∨ (Rect.block (s := S1x16392) S1x16392.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16392.size a ≤ S4096x16392.size a
  hwx0_1 : ∀ i : grid0.Coords, EltTy.bits .f32 = 32 ∨ (Rect.block (s := S4096x16392) S128x16392.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x16392.size a ≤ S4096x16392.size a
  hwx0_2 : ∀ i : grid0.Coords, EltTy.bits .f32 = 32 ∨ (Rect.block (s := S4096x16392) S128x16392.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S16x128.size a
  hwx0_5 : ∀ i : grid0.Coords, EltTy.bits .f32 = 32 ∨ (Rect.block (s := S16x128) S8x128.size (cc0_transform_5 i) (hinb0_5 i)).WholeWords (EltTy.packing .f32)

variable [Facts₀]

abbrev win0_0 : Pipeline.Window sig grid0 :=
  Pipeline.Window.ofSpec (Memref.whole main_v10) S1x16392.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x16392.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x16392.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_2) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x2049x8 : Shape := ⟨3, ![4096, 2049, 8]⟩
abbrev S4096x1x1 : Shape := ⟨3, ![4096, 1, 1]⟩
abbrev S4096 : Shape := ⟨1, ![4096]⟩
abbrev S4096x2048x8 : Shape := ⟨3, ![4096, 2048, 8]⟩
abbrev S_ : Shape := ⟨0, ![]⟩
abbrev S2048 : Shape := ⟨1, ![2048]⟩
abbrev S1x2048 : Shape := ⟨2, ![1, 2048]⟩
abbrev S4096x1 : Shape := ⟨2, ![4096, 1]⟩
abbrev S4096x2048 : Shape := ⟨2, ![4096, 2048]⟩
abbrev S4096x2048x1 : Shape := ⟨3, ![4096, 2048, 1]⟩

abbrev nBuf : Space → Nat
  | .hbm => 62
  | .vmem => 0
  | .smem => 0
  | _ => 0

abbrev bufTy : (tb : Table) → Fin (tcTables nBuf tb) → BufTy
  | .hbm, ⟨0, _⟩ => ⟨S4096x2049x8, .f32⟩
  | .hbm, ⟨1, _⟩ => ⟨S4096x2049x8, .f32⟩
  | .hbm, ⟨2, _⟩ => ⟨S4096x1x1, .f32⟩
  | .hbm, ⟨3, _⟩ => ⟨S4096, .f32⟩
  | .hbm, ⟨4, _⟩ => ⟨S4096x1x1, .f32⟩
  | .hbm, ⟨5, _⟩ => ⟨S4096, .f32⟩
  | .hbm, ⟨6, _⟩ => ⟨S4096x2048x8, .f32⟩
  | .hbm, ⟨7, _⟩ => ⟨S4096x2048x8, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S2048, .i32⟩
  | .hbm, ⟨19, _⟩ => ⟨S1x2048, .i32⟩
  | .hbm, ⟨20, _⟩ => ⟨S4096x1, .i32⟩
  | .hbm, ⟨21, _⟩ => ⟨S4096x2048, .i32⟩
  | .hbm, ⟨22, _⟩ => ⟨S4096x2048, .i32⟩
  | .hbm, ⟨23, _⟩ => ⟨S4096x2048, .i1⟩
  | .hbm, ⟨24, _⟩ => ⟨S4096x2048x8, .f32⟩
  | .hbm, ⟨25, _⟩ => ⟨S4096x2048x8, .f32⟩
  | .hbm, ⟨26, _⟩ => ⟨S4096x2048x1, .i1⟩
  | .hbm, ⟨27, _⟩ => ⟨S4096x2048x1, .f32⟩
  | .hbm, ⟨28, _⟩ => ⟨S4096x2048x8, .f32⟩
  | .hbm, ⟨29, _⟩ => ⟨S4096x2048x8, .f32⟩
  | .hbm, ⟨30, _⟩ => ⟨S_, .f32⟩
  | .hbm, ⟨31, _⟩ => ⟨S4096, .f32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S4096x2049x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_c_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_cst_11 : Ref sig .tc := ⟨.hbm, 58, rfl⟩
abbrev main_call1_v0 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]

class Facts₀ : Prop where
  slices_S4096x2049x8_S4096x1x1_0_0_0 : S4096x2049x8.Slices ![0, 0, 0] S4096x1x1
  shapeCasts_S4096x1x1_S4096 : S4096x1x1.ShapeCasts S4096
  slices_S4096x2049x8_S4096x2048x8_0_1_0 : S4096x2049x8.Slices ![0, 1, 0] S4096x2048x8
  reducesTo_S4096_S_d0 : S4096.ReducesTo [0] S_
  h_S_ : 0 < S_.numel
  bcast_S_S4096 : S_.BroadcastsInDim S4096 (![] : Fin 0 → Fin S4096.rank)
  bcast_S2048_S1x2048_1 : S2048.BroadcastsInDim S1x2048 (![1] : Fin 1 → Fin S1x2048.rank)
  bcast_S4096_S4096x1_0 : S4096.BroadcastsInDim S4096x1 (![0] : Fin 1 → Fin S4096x1.rank)
  bcast_S1x2048_S4096x2048_0_1 : S1x2048.BroadcastsInDim S4096x2048 (![0, 1] : Fin 2 → Fin S4096x2048.rank)
  bcast_S4096x1_S4096x2048_0_1 : S4096x1.BroadcastsInDim S4096x2048 (![0, 1] : Fin 2 → Fin S4096x2048.rank)
  bcast_S4096x2048_S4096x2048x1_0_1 : S4096x2048.BroadcastsInDim S4096x2048x1 (![0, 1] : Fin 2 → Fin S4096x2048x1.rank)
  bcast_S4096x2048x1_S4096x2048x8_0_1_2 : S4096x2048x1.BroadcastsInDim S4096x2048x8 (![0, 1, 2] : Fin 3 → Fin S4096x2048x8.rank)
  reducesTo_S4096x2048x8_S4096_d1_2 : S4096x2048x8.ReducesTo [1, 2] S4096

variable [Facts₀]

class Facts : Prop extends Facts₀ where

variable [Facts]
-- ==== Proof.Spec.lean ====
/-
  The loss both programs compute, as plain mathematics over the extended reals.

  The inputs are two arrays P, T of shape (4096, 2049, 8).  Row 0 of the middle axis is a header whose
  entry (b, 0, 0) of T carries sample b's action count; rows 1 … 2048 are the action slots.  With
  n_b the count truncated to a 32-bit integer:

    count term   Σ_b (P[b,0,0] − T[b,0,0])²
    action term  Σ_b [n_b > 0] · (Σ_{a < 2048, f < 8} [a < n_b] · (P[b,a+1,f] − T[b,a+1,f])²) / (8 n_b)
    valid count  Σ_b [n_b > 0]

  and the result is  1·(count term / 4096) + (valid > 0 ? 2·(action term / max(valid, 1)) : 0).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shape of both inputs. -/
abbrev SIn : Shape := ⟨3, ![4096, 2049, 8]⟩
/-- The scalar shape. -/
abbrev S0 : Shape := ⟨0, ![]⟩

/-- Sample `b`'s action count: entry (b, 0, 0) of the targets, truncated to a 32-bit integer. -/
def cnt (T : SIn.Idx → EReal) (b : Fin 4096) : BitVec 32 := Ideal.fptosi 32 (T (ix3 b 0 0))

/-- The squared difference of the two inputs at one entry. -/
def sqd (P T : SIn.Idx → EReal) (b : Fin 4096) (a : Fin 2049) (f : Fin 8) : EReal :=
  (P (ix3 b a f) - T (ix3 b a f)) * (P (ix3 b a f) - T (ix3 b a f))

/-- Sample `b`'s masked sum: the squared differences of the action slots below its count. -/
def rowSum (P T : SIn.Idx → EReal) (b : Fin 4096) : EReal :=
  ∑ a : Fin 2048, ∑ f : Fin 8, if (a.val : ℤ) < (cnt T b).toInt then sqd P T b a.succ f else 0

/-- Sample `b`'s mean squared error over its `8 n_b` counted entries; zero for a sample with no action. -/
def mse (P T : SIn.Idx → EReal) (b : Fin 4096) : EReal :=
  if 0 < (cnt T b).toInt then Ideal.div (rowSum P T b) ((((cnt T b).toInt * 8 : ℤ) : ℝ) : EReal) else 0

/-- The count-regression term before its division by the batch size. -/
def sCount (P T : SIn.Idx → EReal) : EReal := ∑ b : Fin 4096, sqd P T b 0 0
/-- The sum of the per-sample errors. -/
def sAction (P T : SIn.Idx → EReal) : EReal := ∑ b : Fin 4096, mse P T b
/-- The number of samples with at least one action. -/
def nValid (T : SIn.Idx → EReal) : EReal := ∑ b : Fin 4096, if 0 < (cnt T b).toInt then (1 : EReal) else 0

/-- The closing scalar arithmetic both programs share, operation for operation:
    `1·(x / 4096) + select(z > 0, 2·(y / max(z, 1)), 0)`. -/
def tail {F : FTy → Type} [FloatOps F] (x y z : FVec F S0 .f32) : FVec F S0 .f32 :=
  addf (mulf (constant (F := F) S0 .f32 0x3F800000#32) (Host.divf x (constant (F := F) S0 .f32 0x45800000#32)))
    (select (cmpf .ogt z (constant (F := F) S0 .f32 0x00000000#32))
      (mulf (constant (F := F) S0 .f32 0x40000000#32) (Host.divf y (maximumf z (constant (F := F) S0 .f32 0x3F800000#32))))
      (id (constant (F := F) S0 .f32 0x00000000#32)))

/-- The value both programs end with. -/
def total (P T : SIn.Idx → EReal) : FVec Ideal S0 .f32 :=
  tail (F := Ideal) (fun _ => sCount P T) (fun _ => sAction P T) (fun _ => nValid T)

end Cert.Spec

end
-- ==== Proof.KArr.lean ====
/-
  The three output arrays of the call after the run, named at their literal type: (16,128) arrays of extended reals.
-/
import proofs.«413703_j42777874268646_4_alg».proof.Proof.Gen.KernelIdeal.Frame
import Idealize.ShloMosaic.PureOps.Ideal

noncomputable section

namespace Cert.KernelIdeal.KVal

open Cert.KernelIdeal Cert.KernelIdeal.Gen Idealize.ShloMosaic Idealize.ShloMosaic.TcCoe Idealize.SL.Sem

variable (m : (ℓ : Loc nD τ sig) → Buf (Elt Ideal) ℓ)

/-- The count-term array (output 0 of the call) after the last write-back. -/
abbrev arr3 (c : Dev nD) : S16x128.Idx → EReal := (dats m 0 c).arrAt 3 cfg0.N
/-- The action-term array (output 1 of the call) after the last write-back. -/
abbrev arr4 (c : Dev nD) : S16x128.Idx → EReal := (dats m 0 c).arrAt 4 cfg0.N
/-- The valid-count array (output 2 of the call) after the last write-back. -/
abbrev arr5 (c : Dev nD) : S16x128.Idx → EReal := (dats m 0 c).arrAt 5 cfg0.N

end Cert.KernelIdeal.KVal

end
-- ==== Proof.KTail.lean ====
/-
  The kernel's run with its result named.

  After the kernel region the host sums each of the three (16, 128) output arrays (from the constant 0) and
  applies the closing scalar arithmetic.  At the ideal instance a host sum from 0 over all axes is the plain
  sum of the entries, and the closing arithmetic is, operation for operation, `Cert.Spec.tail`: the two
  divisions, the maximum with 1, the products with 1 and 2, the comparison with 0, the select (whose
  else-branch passes through an identity conversion) and the final addition.  So the result buffer ends at
  `Cert.Spec.tail` of the three sums of the output arrays' final contents, and the arguments end as launched.
-/
import proofs.«413703_j42777874268646_4_alg».proof.Proof.Gen.KernelIdeal.Frame
import proofs.«413703_j42777874268646_4_alg».proof.Proof.Spec
import proofs.«413703_j42777874268646_4_alg».proof.Proof.KArr
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable (m : (ℓ : Loc nD τ sig) → Buf (Elt Ideal) ℓ) (ρ : Dev nD → PrngReg)

/-- The host's sum over both axes of a (16, 128) array, started from the constant 0, is the sum of its entries:
    the result shape has no axis, so every entry reduces into its one index, and 0 + s = s. -/
theorem reduceAdd_zero (A : FVec Ideal S16x128 .f32) (h : S16x128.ReducesTo [0, 1] S_) (hu : 0 < S_.numel) :
    Host.reduceAdd (F := Ideal) A (constant (F := Ideal) S_ .f32 0x00000000#32) h hu
      = fun _ => ∑ j : S16x128.Idx, A j := by
  funext i
  unfold Host.reduceAdd
  rw [Ideal.hostReduceAdd_def, Ideal.hostReduceAdd_total h (fun b => b.elim0)]
  show Ideal.ofBits .f32 0x00000000#32 + _ = _
  rw [Ideal.ofBits_zero_f32, zero_add]

/-- The closing arithmetic, written out operation by operation, is `Cert.Spec.tail` (at any instance). -/
theorem tail_prog_eq {F : FTy → Type} [FloatOps F] (x y z : FVec F S_ .f32) :
    addf (mulf (constant (F := F) S_ .f32 0x3F800000#32) (Host.divf x (constant (F := F) S_ .f32 0x45800000#32)))
      (select (cmpf .ogt z (constant (F := F) S_ .f32 0x00000000#32))
        (mulf (constant (F := F) S_ .f32 0x40000000#32) (Host.divf y (maximumf z (constant (F := F) S_ .f32 0x3F800000#32))))
        (id (constant (F := F) S_ .f32 0x00000000#32)))
      = Cert.Spec.tail x y z := rfl

/-- What the host operations after the region leave in the result buffer: the closing arithmetic of the three
    sums of the output arrays. -/
theorem tail_val (c : Dev nD) :
    Pipeline.afterTail₀ cfgs (dats m) 0 (V0 m) [hostOps1, hostOps1_1, hostOps1_2] c main_v22
      = Cert.Spec.tail (F := Ideal)
          (fun _ => ∑ j : S16x128.Idx, arr3 m c j)
          (fun _ => ∑ j : S16x128.Idx, arr4 m c j)
          (fun _ => ∑ j : S16x128.Idx, arr5 m c j) := by
  unfold Pipeline.afterTail₀
  -- the contents the region leaves: the arrays at their final contents, every other buffer as at its entry
  generalize hW : Pipeline.withArrays (cfgs 0).spec c (V0 m c) (fun w => (dats m 0 c).arrAt w (cfgs 0).N) = Wv
  have e3 : Wv (Proc.devRef .tc main_v11_0) = arr3 m c := by
    rw [← hW]; exact Pipeline.withArrays_arr spec0 launch0.win.arr_inj c _ _ 3
  have e4 : Wv (Proc.devRef .tc main_v11_1) = arr4 m c := by
    rw [← hW]; exact Pipeline.withArrays_arr spec0 launch0.win.arr_inj c _ _ 4
  have e5 : Wv (Proc.devRef .tc main_v11_2) = arr5 m c := by
    rw [← hW]; exact Pipeline.withArrays_arr spec0 launch0.win.arr_inj c _ _ 5
  -- the twenty-one operations in order, each result read at its own buffer
  simp only [hostOps1, hostOps1_1, hostOps1_2, List.flatten_cons, List.flatten_nil, List.append_nil, List.cons_append,
    List.nil_append]
  after_results_simp
  -- the select's function passes its operands through identity transports between equal buffer types
  simp only [StableHlo.TRef.ofBuf, StableHlo.TRef.toBuf, cast_eq]
  -- the three arrays, then the three host sums
  rw [e3, e4, e5]
  rw [reduceAdd_zero (arr3 m c), reduceAdd_zero (arr4 m c), reduceAdd_zero (arr5 m c)]
  exact tail_prog_eq (F := Ideal) _ _ _

/-- The kernel's run: every weakly fair execution of @main terminates, the result buffer ends at the closing
    arithmetic of the three sums of the output arrays' final contents, and the two arguments end as launched. -/
theorem run_tail : θ_run defs (onTc (τ := τ) (main (F := Ideal))) ⟨m, fun _ => 0, ρ⟩ fun r => ∀ c : Dev nD,
      r.2.mem ((c : Thread nD τ).loc main_v22) = Cert.Spec.tail (F := Ideal)
          (fun _ => ∑ j : S16x128.Idx, arr3 m c j)
          (fun _ => ∑ j : S16x128.Idx, arr4 m c j)
          (fun _ => ∑ j : S16x128.Idx, arr5 m c j)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v22 (Pipeline.mem_restRefs_of main_v22 (by decide) (by decide))).trans (tail_val m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KVal

end
-- ==== Proof.KPieces.lean ====
/-
  What one grid point leaves in each of the kernel's three accumulator blocks.

  At a grid point the body reads 128 rows P_t, T_t of the flattened inputs and the column table, and computes three
  scalars: the sum over the rows of the squared difference in column 0; the sum over the rows of the row's mean
  squared error over its counted action entries; the number of rows whose count is positive.  Each scalar s is added
  into entry (0, 0) of an (8, 128) block:  new = old + (mask ? s : 0),  mask[r, l] = (r = 0) ∧ (l = 0).  At the first
  point of a core's sweep of 16 points the block is first set to zero and read back, so there new = 0 + (mask ? s : 0).

  This module names the point's blocks and its three scalars, reads what the stores of the two control cases leave
  in each block as those values (for any float instance), and reads the update at an index over the extended reals:
  new[r, l] = old[r, l] + (r = 0 ∧ l = 0 ? s : 0).
-/
import proofs.«413703_j42777874268646_4_alg».proof.Proof.Gen.KernelIdeal.Frame
import proofs.«413703_j42777874268646_4_alg».proof.Proof.Spec
import Idealize.ShloMosaic.Lib.Pipeline.Value
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.KVal

open Cert.KernelIdeal Cert.KernelIdeal.Gen

/-! ## The point's blocks and its three scalars -/

section Blocks

variable (m : (ℓ : Loc nD τ sig) → Buf (Elt Ideal) ℓ)

/-- The column table as the point reads it: one row of 16392 column labels. -/
abbrev tblk (c : Dev nD) (t : Fin cfg0.N) : Vec Ideal S1x16392 .i32 := iblk m c 0 t
/-- Rows 128 t … 128 t + 127 of the flattened predictions. -/
abbrev pblk (c : Dev nD) (t : Fin cfg0.N) : Vec Ideal S128x16392 .f32 := iblk m c 1 t
/-- Rows 128 t … 128 t + 127 of the flattened targets. -/
abbrev qblk (c : Dev nD) (t : Fin cfg0.N) : Vec Ideal S128x16392 .f32 := iblk m c 2 t

/-- Point `t`'s first scalar: the sum of the squared differences of column 0 over its 128 rows. -/
def sc3 (c : Dev nD) (t : Fin cfg0.N) : EReal := k0_pay12 (F := Ideal) (pblk m c t) (qblk m c t)
/-- Point `t`'s second scalar: the sum of the rows' mean squared errors over its 128 rows. -/
def sc4 (c : Dev nD) (t : Fin cfg0.N) : EReal := k0_pay13 (F := Ideal) (pblk m c t) (qblk m c t) (tblk m c t)
/-- Point `t`'s third scalar: the number of rows with a positive count among its 128 rows. -/
def sc5 (c : Dev nD) (t : Fin cfg0.N) : EReal := extractAt ![0, 0] (k0_pay14 (F := Ideal) (qblk m c t)) inpos_S1x1_p0_0

end Blocks

/-! ## What the two control cases leave in each block, for any float instance -/

section Pieces

variable {F : FTy → Type} [FloatOps F]

/-- The zero offsets of a whole-block access, as a constant function. -/
theorem zero2 : (![0, 0] : Fin 2 → Nat) = fun _ => 0 := funext fun a => by fin_cases a <;> rfl

/-- First point of a sweep, accumulator 3 (the sum of the squared differences of column 0): the block is reset to zero, read back, and the point's
    scalar is added into its slot: the later store covers the block, and what it read back is the zero block. -/
theorem out_A_3 (c : Dev nD) (i : grid0.Coords) (a2 : Memref sig .tc .vmem S1x16392 .i32) (h2 : a2.IsWhole)
    (a3 : Memref sig .tc .vmem S128x16392 .f32) (h3 : a3.IsWhole) (a4 : Memref sig .tc .vmem S128x16392 .f32) (h4 : a4.IsWhole)
    (a5 : Memref sig .tc .vmem S8x128 .f32) (h5 : a5.IsWhole) (a6 : Memref sig .tc .vmem S8x128 .f32) (h6 : a6.IsWhole)
    (a7 : Memref sig .tc .vmem S8x128 .f32) (h7 : a7.IsWhole)
    (hc : cond0_0 i) (x0 : Vec F S1x16392 .i32) (x1 x2 : Vec F S128x16392 .f32) :
    out0_A_3 c i a2 h2 a3 h3 a4 h4 a5 h5 a6 h6 a7 h7 hc x0 x1 x2 = k0_pay5 (k0_pay12 x1 x2) (k0_pay1 (F := F)) := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_cons_unit_zero (S := S8x128) zero2, View.readCov_unit_zero (S := S8x128) _ zero2]
  simp only [View.readAt_eq_ld, h3.read_unread, h4.read_unread, View.ld_unit_zero (S := S128x16392) zero2]

/-- Any later point of a sweep, accumulator 3: the point's scalar is added into the slot of what the block held. -/
theorem out_B_3 (c : Dev nD) (i : grid0.Coords) (a2 : Memref sig .tc .vmem S1x16392 .i32) (h2 : a2.IsWhole)
    (a3 : Memref sig .tc .vmem S128x16392 .f32) (h3 : a3.IsWhole) (a4 : Memref sig .tc .vmem S128x16392 .f32) (h4 : a4.IsWhole)
    (a5 : Memref sig .tc .vmem S8x128 .f32) (h5 : a5.IsWhole) (a6 : Memref sig .tc .vmem S8x128 .f32) (h6 : a6.IsWhole)
    (a7 : Memref sig .tc .vmem S8x128 .f32) (h7 : a7.IsWhole)
    (hc : ¬cond0_0 i) (x0 : Vec F S1x16392 .i32) (x1 x2 : Vec F S128x16392 .f32) (xo3 xo4 xo5 : Vec F S8x128 .f32) :
    out0_B_3 c i a2 h2 a3 h3 a4 h4 a5 h5 a6 h6 a7 h7 hc x0 x1 x2 xo3 xo4 xo5 = k0_pay5 (k0_pay12 x1 x2) xo3 := by
  unfold out0_B_3
  rw [View.read_writes_eq_canon _ _ _ (cover0_B_3 c i a2 h2 a3 h3 a4 h4 a5 h5 a6 h6 a7 h7 hc x0 x1 x2 xo3 xo4 xo5)]
  unfold kernelRun0_B
  dsimp only
  sl_unfold_words
  rw [View.canon_unit_zero zero2]
  simp only [View.readAt_eq_ld, h3.read_unread, h4.read_unread, h5.read_unread, View.ld_unit_zero (S := S128x16392) zero2, View.ld_unit_zero (S := S8x128) zero2]

/-- First point of a sweep, accumulator 4 (the sum of the rows' mean squared errors): the block is reset to zero, read back, and the point's
    scalar is added into its slot: the later store covers the block, and what it read back is the zero block. -/
theorem out_A_4 (c : Dev nD) (i : grid0.Coords) (a2 : Memref sig .tc .vmem S1x16392 .i32) (h2 : a2.IsWhole)
    (a3 : Memref sig .tc .vmem S128x16392 .f32) (h3 : a3.IsWhole) (a4 : Memref sig .tc .vmem S128x16392 .f32) (h4 : a4.IsWhole)
    (a5 : Memref sig .tc .vmem S8x128 .f32) (h5 : a5.IsWhole) (a6 : Memref sig .tc .vmem S8x128 .f32) (h6 : a6.IsWhole)
    (a7 : Memref sig .tc .vmem S8x128 .f32) (h7 : a7.IsWhole)
    (hc : cond0_0 i) (x0 : Vec F S1x16392 .i32) (x1 x2 : Vec F S128x16392 .f32) :
    out0_A_4 c i a2 h2 a3 h3 a4 h4 a5 h5 a6 h6 a7 h7 hc x0 x1 x2 = k0_pay6 (k0_pay13 x1 x2 x0) (k0_pay2 (F := F)) := by
  unfold out0_A_4
  rw [View.read_writes_eq_canon _ _ _ (cover0_A_4 c i a2 h2 a3 h3 a4 h4 a5 h5 a6 h6 a7 h7 hc x0 x1 x2)]
  unfold kernelRun0_A
  dsimp only
  sl_unfold_words
  rw [View.canon_cons_unit_zero (S := S8x128) zero2, View.readCov_unit_zero (S := S8x128) _ zero2]
  simp only [View.readAt_eq_ld, h2.read_unread, h3.read_unread, h4.read_unread, View.ld_unit_zero (S := S128x16392) zero2, View.ld_unit_zero (S := S1x16392) zero2]

/-- Any later point of a sweep, accumulator 4: the point's scalar is added into the slot of what the block held. -/
theorem out_B_4 (c : Dev nD) (i : grid0.Coords) (a2 : Memref sig .tc .vmem S1x16392 .i32) (h2 : a2.IsWhole)
    (a3 : Memref sig .tc .vmem S128x16392 .f32) (h3 : a3.IsWhole) (a4 : Memref sig .tc .vmem S128x16392 .f32) (h4 : a4.IsWhole)
    (a5 : Memref sig .tc .vmem S8x128 .f32) (h5 : a5.IsWhole) (a6 : Memref sig .tc .vmem S8x128 .f32) (h6 : a6.IsWhole)
    (a7 : Memref sig .tc .vmem S8x128 .f32) (h7 : a7.IsWhole)
    (hc : ¬cond0_0 i) (x0 : Vec F S1x16392 .i32) (x1 x2 : Vec F S128x16392 .f32) (xo3 xo4 xo5 : Vec F S8x128 .f32) :
    out0_B_4 c i a2 h2 a3 h3 a4 h4 a5 h5 a6 h6 a7 h7 hc x0 x1 x2 xo3 xo4 xo5 = k0_pay6 (k0_pay13 x1 x2 x0) xo4 := by
  unfold out0_B_4
  rw [View.read_writes_eq_canon _ _ _ (cover0_B_4 c i a2 h2 a3 h3 a4 h4 a5 h5 a6 h6 a7 h7 hc x0 x1 x2 xo3 xo4 xo5)]
  unfold kernelRun0_B
  dsimp only
  sl_unfold_words
  rw [View.canon_unit_zero zero2]
  simp only [View.readAt_eq_ld, h2.read_unread, h3.read_unread, h4.read_unread, h6.read_unread, View.ld_unit_zero (S := S128x16392) zero2, View.ld_unit_zero (S := S1x16392) zero2, View.ld_unit_zero (S := S8x128) zero2]

/-- First point of a sweep, accumulator 5 (the number of rows with a positive count): the block is reset to zero, read back, and the point's
    scalar is added into its slot: the later store covers the block, and what it read back is the zero block. -/
theorem out_A_5 (c : Dev nD) (i : grid0.Coords) (a2 : Memref sig .tc .vmem S1x16392 .i32) (h2 : a2.IsWhole)
    (a3 : Memref sig .tc .vmem S128x16392 .f32) (h3 : a3.IsWhole) (a4 : Memref sig .tc .vmem S128x16392 .f32) (h4 : a4.IsWhole)
    (a5 : Memref sig .tc .vmem S8x128 .f32) (h5 : a5.IsWhole) (a6 : Memref sig .tc .vmem S8x128 .f32) (h6 : a6.IsWhole)
    (a7 : Memref sig .tc .vmem S8x128 .f32) (h7 : a7.IsWhole)
    (hc : cond0_0 i) (x0 : Vec F S1x16392 .i32) (x1 x2 : Vec F S128x16392 .f32) :
    out0_A_5 c i a2 h2 a3 h3 a4 h4 a5 h5 a6 h6 a7 h7 hc x0 x1 x2 = k0_pay7 (k0_pay14 x2) (k0_pay3 (F := F)) := by
  unfold out0_A_5
  rw [View.read_writes_eq_canon _ _ _ (cover0_A_5 c i a2 h2 a3 h3 a4 h4 a5 h5 a6 h6 a7 h7 hc x0 x1 x2)]
  unfold kernelRun0_A
  dsimp only
  sl_unfold_words
  rw [View.canon_cons_unit_zero (S := S8x128) zero2, View.readCov_unit_zero (S := S8x128) _ zero2]
  simp only [View.readAt_eq_ld, h4.read_unread, View.ld_unit_zero (S := S128x16392) zero2]

/-- Any later point of a sweep, accumulator 5: the point's scalar is added into the slot of what the block held. -/
theorem out_B_5 (c : Dev nD) (i : grid0.Coords) (a2 : Memref sig .tc .vmem S1x16392 .i32) (h2 : a2.IsWhole)
    (a3 : Memref sig .tc .vmem S128x16392 .f32) (h3 : a3.IsWhole) (a4 : Memref sig .tc .vmem S128x16392 .f32) (h4 : a4.IsWhole)
    (a5 : Memref sig .tc .vmem S8x128 .f32) (h5 : a5.IsWhole) (a6 : Memref sig .tc .vmem S8x128 .f32) (h6 : a6.IsWhole)
    (a7 : Memref sig .tc .vmem S8x128 .f32) (h7 : a7.IsWhole)
    (hc : ¬cond0_0 i) (x0 : Vec F S1x16392 .i32) (x1 x2 : Vec F S128x16392 .f32) (xo3 xo4 xo5 : Vec F S8x128 .f32) :
    out0_B_5 c i a2 h2 a3 h3 a4 h4 a5 h5 a6 h6 a7 h7 hc x0 x1 x2 xo3 xo4 xo5 = k0_pay7 (k0_pay14 x2) xo5 := by
  unfold out0_B_5
  rw [View.read_writes_eq_canon _ _ _ (cover0_B_5 c i a2 h2 a3 h3 a4 h4 a5 h5 a6 h6 a7 h7 hc x0 x1 x2 xo3 xo4 xo5)]
  unfold kernelRun0_B
  dsimp only
  sl_unfold_words
  rw [View.canon_unit_zero zero2]
  simp only [View.readAt_eq_ld, h4.read_unread, h7.read_unread, View.ld_unit_zero (S := S128x16392) zero2, View.ld_unit_zero (S := S8x128) zero2]

/-- The three updates are one function of the scalar and the old block; -/
theorem pay6_eq (s : F .f32) (xo : Vec F S8x128 .f32) : k0_pay6 s xo = k0_pay5 s xo := rfl
/-- the third takes its scalar out of a (1, 1) vector first; -/
theorem pay7_eq (v : FVec F S1x1 .f32) (xo : Vec F S8x128 .f32) :
    k0_pay7 v xo = k0_pay5 (extractAt ![0, 0] v inpos_S1x1_p0_0) xo := rfl
/-- and the three reset blocks are one zero block. -/
theorem pay2_eq : k0_pay2 (F := F) = k0_pay1 (F := F) := rfl
theorem pay3_eq : k0_pay3 (F := F) = k0_pay1 (F := F) := rfl

end Pieces

/-! ## The update read at an index, over the extended reals -/

section AtIndex

/-- The slot mask on words: both coordinates, as 32-bit words, compare equal to zero exactly at (0, 0). -/
theorem mask_bits : ∀ (r : Fin 8) (l : Fin 128),
    IntOp.andi (IntOp.cmpi .eq (BitVec.ofNat 32 r.val) 0#32) (IntOp.cmpi .eq (BitVec.ofNat 32 l.val) 0#32)
      = if r.val = 0 ∧ l.val = 0 then 1#1 else 0#1 := by decide +kernel

/-- The slot mask at an index: set exactly at row 0, lane 0. -/
theorem pay4_apply (r : Fin 8) (l : Fin 128) : k0_pay4 (ix2 r l) = if r.val = 0 ∧ l.val = 0 then 1#1 else 0#1 := by
  show IntOp.andi (IntOp.cmpi .eq (iota .tc S8x128 32 [0] iota_S8x128_d0_w32 (ix2 r l)) 0#32)
      (IntOp.cmpi .eq (iota .tc S8x128 32 [1] iota_S8x128_d1_w32 (ix2 r l)) 0#32) = _
  rw [iota_single_apply, iota_single_apply]
  exact mask_bits r l

/-- The update at an index: the old entry, plus the scalar at (0, 0) and plus zero elsewhere. -/
theorem pay5_apply (s : EReal) (xo : Vec Ideal S8x128 .f32) (r : Fin 8) (l : Fin 128) :
    k0_pay5 (F := Ideal) s xo (ix2 r l) = xo (ix2 r l) + (if r.val = 0 ∧ l.val = 0 then s else 0) := by
  show shapeCast S8x128 xo shapeCasts_S8x128_S8x128 (ix2 r l)
      + Scalar.select (k0_pay4 (ix2 r l)) s (Ideal.ofBits .f32 0x00000000#32) = _
  rw [shapeCast_self, pay4_apply, Ideal.ofBits_zero_f32]
  by_cases h : r.val = 0 ∧ l.val = 0
  · rw [if_pos h, if_pos h, select_one]
  · rw [if_neg h, if_neg h, select_zero]

/-- The reset block at an index: zero. -/
theorem pay1_apply (r : Fin 8) (l : Fin 128) : k0_pay1 (F := Ideal) (ix2 r l) = 0 := by
  show Ideal.ofBits .f32 0x00000000#32 = 0
  exact Ideal.ofBits_zero_f32

end AtIndex

end Cert.KernelIdeal.KVal

end
-- ==== Proof.KAccum.lean ====
/-
  The three accumulator blocks after every grid point.

  The grid's 32 points fall into two sweeps of 16 (one per core): points 16 q … 16 q + 15.  A block is set to zero at
  the first point of a sweep and each point adds its scalar into entry (0, 0); every other entry only ever receives
  0 + 0.  So after point n the block is zero away from (0, 0) and holds there the partial sum

      s(16 ⌊n / 16⌋) + … + s(n)          (n mod 16 + 1 terms)

  of the scalars of the sweep's points so far.  This is proved once, by induction on the point, for any family of
  blocks that is reset and updated this way, and then read off the kernel's run for each of its three outputs.
-/
import proofs.«413703_j42777874268646_4_alg».proof.Proof.KPieces
import Mathlib.Algebra.BigOperators.Fin
import Mathlib.Algebra.BigOperators.Intervals

noncomputable section

open scoped BigOperators
open Idealize.ShloMosaic Idealize.ShloMosaic.TcCoe Idealize.SL.Sem
open Idealize.ShloMosaic.Pipeline (Dat)
open Idealize.ShloMosaic.ValueIdx

namespace Cert.KernelIdeal.KVal

open Cert.KernelIdeal Cert.KernelIdeal.Gen

/-! ## Partial sums over a sweep -/

/-- A per-point scalar continued by zero past the last point, so that sums may range over plain naturals. -/
def pad0 (f : Fin cfg0.N → EReal) (k : ℕ) : EReal := if h : k < cfg0.N then f ⟨k, h⟩ else 0

theorem pad0_of_lt (f : Fin cfg0.N → EReal) (k : ℕ) (h : k < cfg0.N) : pad0 f k = f ⟨k, h⟩ := dif_pos h

/-- The sum of the scalars of point `n`'s sweep from its first point up to `n`. -/
def part (f : Fin cfg0.N → EReal) (n : ℕ) : EReal := ∑ i ∈ Finset.range (n % 16 + 1), pad0 f (16 * (n / 16) + i)

/-- At the first point of a sweep the partial sum is that point's scalar alone. -/
theorem part_reset (f : Fin cfg0.N → EReal) (n : ℕ) (hn : n < cfg0.N) (h0 : n % 16 = 0) : part f n = f ⟨n, hn⟩ := by
  have e0 : n % 16 + 1 = 1 := by omega
  have e1 : 16 * (n / 16) + 0 = n := by omega
  unfold part
  rw [e0, Finset.sum_range_one, e1, pad0_of_lt f n hn]

/-- At a later point it is the partial sum of the point before plus the point's scalar. -/
theorem part_step (f : Fin cfg0.N → EReal) (n : ℕ) (hn : n + 1 < cfg0.N) (h0 : ¬(n + 1) % 16 = 0) :
    part f (n + 1) = part f n + f ⟨n + 1, hn⟩ := by
  have e1 : (n + 1) % 16 + 1 = (n % 16 + 1) + 1 := by omega
  have e2 : (n + 1) / 16 = n / 16 := by omega
  have e3 : 16 * (n / 16) + (n % 16 + 1) = n + 1 := by omega
  unfold part
  rw [e1, e2, Finset.sum_range_succ, e3, pad0_of_lt f (n + 1) hn]

/-- At the last point of sweep `q` it is the sum over all 16 points of the sweep. -/
theorem part_full (f : Fin cfg0.N → EReal) (q : ℕ) (hq : q < 2) :
    part f (16 * q + 15)
      = ∑ i : Fin 16, f ⟨16 * q + i.val, by have hi : i.val < 16 := i.isLt; rw [show cfg0.N = 32 from N_0]; omega⟩ := by
  have e1 : (16 * q + 15) % 16 + 1 = 16 := by omega
  have e2 : (16 * q + 15) / 16 = q := by omega
  unfold part
  rw [e1, e2, Finset.sum_range]
  refine Finset.sum_congr rfl fun i _ => ?_
  exact pad0_of_lt f (16 * q + i.val) _

/-! ## A block that is zero away from its slot -/

/-- The (8, 128) block holding `s` at (0, 0) and zero elsewhere. -/
def slot (s : EReal) : S8x128.Idx → EReal := fun j => if (j 0).val = 0 ∧ (j 1).val = 0 then s else 0

theorem slot_apply (s : EReal) (r : Fin 8) (l : Fin 128) :
    slot s (ix2 r l) = if r.val = 0 ∧ l.val = 0 then s else 0 := rfl

/-- Adding a scalar into the slot of such a block adds it to the slot's entry: off the slot, 0 + 0 = 0. -/
theorem slot_step (s a : EReal) : k0_pay5 (F := Ideal) s (slot a) = slot (a + s) := by
  funext j
  obtain ⟨r, l, rfl⟩ : ∃ (r : Fin 8) (l : Fin 128), j = ix2 r l := ⟨j 0, j 1, eq_ix2 j⟩
  rw [pay5_apply, slot_apply, slot_apply]
  by_cases h : r.val = 0 ∧ l.val = 0
  · simp only [if_pos h]
  · simp only [if_neg h, add_zero]

/-- The reset block is the block with zero in its slot; -/
theorem zero_blk : k0_pay1 (F := Ideal) = slot 0 := by
  funext j
  obtain ⟨r, l, rfl⟩ : ∃ (r : Fin 8) (l : Fin 128), j = ix2 r l := ⟨j 0, j 1, eq_ix2 j⟩
  rw [pay1_apply, slot_apply, ite_self]

/-- so a reset followed by an update leaves the scalar alone in the slot. -/
theorem reset_step (s : EReal) : k0_pay5 (F := Ideal) s (k0_pay1 (F := Ideal)) = slot s := by
  rw [zero_blk, slot_step, zero_add]

/-! ## The induction over the points -/

/-- A family of blocks, one per point, that is the update of the zero block at the first point of each sweep and the
    update of the block of the point before at every other point, is at each point the block holding the sweep's
    partial sum in its slot. -/
theorem acc_of_steps (f : Fin cfg0.N → EReal) (a : (n : ℕ) → n < cfg0.N → Vec Ideal S8x128 .f32)
    (hA : ∀ (n : ℕ) (hn : n < cfg0.N), n % 16 = 0 → a n hn = k0_pay5 (F := Ideal) (f ⟨n, hn⟩) (k0_pay1 (F := Ideal)))
    (hB : ∀ (n : ℕ) (hn : n + 1 < cfg0.N), ¬(n + 1) % 16 = 0 →
      a (n + 1) hn = k0_pay5 (F := Ideal) (f ⟨n + 1, hn⟩) (a n (Nat.lt_of_succ_lt hn))) :
    ∀ (n : ℕ) (hn : n < cfg0.N), a n hn = slot (part f n)
  | 0, hn => by
    rw [hA 0 hn (Nat.zero_mod 16), reset_step, part_reset f 0 hn (Nat.zero_mod 16)]
  | n + 1, hn => by
    by_cases h0 : (n + 1) % 16 = 0
    · rw [hA (n + 1) hn h0, reset_step, part_reset f (n + 1) hn h0]
    · rw [hB n hn h0, acc_of_steps f a hA hB n (Nat.lt_of_succ_lt hn), slot_step, part_step f n hn h0]

/-! ## The kernel's three accumulators -/

section Run

variable (m : (ℓ : Loc nD τ sig) → Buf (Elt Ideal) ℓ)

/-- Accumulator 3 after the first point of a sweep: the point's scalar in the slot of the zero block. -/
theorem stepA3 (c : Dev nD) (t : Fin cfg0.N) (h0 : t.val % 16 = 0) :
    (outsAt0 m c t.val t.isLt).1 = k0_pay5 (F := Ideal) (sc3 m c t) (k0_pay1 (F := Ideal)) := by
  rw [outsAt0_A m c t h0]
  dsimp only
  exact out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (tblk m c t) (pblk m c t) (qblk m c t)

/-- Accumulator 3 after any later point: the point's scalar added into the slot of what the point before left. -/
theorem stepB3 (c : Dev nD) (t : Fin cfg0.N) (h0 : ¬t.val % 16 = 0) :
    (outsAt0 m c t.val t.isLt).1
      = k0_pay5 (F := Ideal) (sc3 m c t) (outsAt0 m c (t.val - 1) (Nat.lt_of_le_of_lt (Nat.sub_le _ _) t.isLt)).1 := by
  rw [outsAt0_B m c t h0]
  dsimp only
  exact out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (tblk m c t) (pblk m c t) (qblk m c t)
      (outsAt0 m c (t.val - 1) (Nat.lt_of_le_of_lt (Nat.sub_le _ _) t.isLt)).1
      (outsAt0 m c (t.val - 1) (Nat.lt_of_le_of_lt (Nat.sub_le _ _) t.isLt)).2.1
      (outsAt0 m c (t.val - 1) (Nat.lt_of_le_of_lt (Nat.sub_le _ _) t.isLt)).2.2

/-- So after point `n` accumulator 3 holds, in its slot, the sum of the scalars of its sweep's points up to `n`. -/
theorem acc3 (c : Dev nD) (n : ℕ) (hn : n < cfg0.N) : (outsAt0 m c n hn).1 = slot (part (sc3 m c) n) :=
  acc_of_steps (sc3 m c) (fun n hn => (outsAt0 m c n hn).1)
    (fun n hn h0 => stepA3 m c ⟨n, hn⟩ h0) (fun n hn h0 => stepB3 m c ⟨n + 1, hn⟩ h0) n hn

/-- Accumulator 4 after the first point of a sweep: the point's scalar in the slot of the zero block. -/
theorem stepA4 (c : Dev nD) (t : Fin cfg0.N) (h0 : t.val % 16 = 0) :
    (outsAt0 m c t.val t.isLt).2.1 = k0_pay5 (F := Ideal) (sc4 m c t) (k0_pay1 (F := Ideal)) := by
  rw [outsAt0_A m c t h0]
  dsimp only
  refine (out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (tblk m c t) (pblk m c t) (qblk m c t)).trans ?_
  rw [pay6_eq, pay2_eq]
  rfl

/-- Accumulator 4 after any later point: the point's scalar added into the slot of what the point before left. -/
theorem stepB4 (c : Dev nD) (t : Fin cfg0.N) (h0 : ¬t.val % 16 = 0) :
    (outsAt0 m c t.val t.isLt).2.1
      = k0_pay5 (F := Ideal) (sc4 m c t) (outsAt0 m c (t.val - 1) (Nat.lt_of_le_of_lt (Nat.sub_le _ _) t.isLt)).2.1 := by
  rw [outsAt0_B m c t h0]
  dsimp only
  refine (out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (tblk m c t) (pblk m c t) (qblk m c t)
      (outsAt0 m c (t.val - 1) (Nat.lt_of_le_of_lt (Nat.sub_le _ _) t.isLt)).1
      (outsAt0 m c (t.val - 1) (Nat.lt_of_le_of_lt (Nat.sub_le _ _) t.isLt)).2.1
      (outsAt0 m c (t.val - 1) (Nat.lt_of_le_of_lt (Nat.sub_le _ _) t.isLt)).2.2).trans ?_
  rw [pay6_eq]
  rfl

/-- So after point `n` accumulator 4 holds, in its slot, the sum of the scalars of its sweep's points up to `n`. -/
theorem acc4 (c : Dev nD) (n : ℕ) (hn : n < cfg0.N) : (outsAt0 m c n hn).2.1 = slot (part (sc4 m c) n) :=
  acc_of_steps (sc4 m c) (fun n hn => (outsAt0 m c n hn).2.1)
    (fun n hn h0 => stepA4 m c ⟨n, hn⟩ h0) (fun n hn h0 => stepB4 m c ⟨n + 1, hn⟩ h0) n hn

/-- Accumulator 5 after the first point of a sweep: the point's scalar in the slot of the zero block. -/
theorem stepA5 (c : Dev nD) (t : Fin cfg0.N) (h0 : t.val % 16 = 0) :
    (outsAt0 m c t.val t.isLt).2.2 = k0_pay5 (F := Ideal) (sc5 m c t) (k0_pay1 (F := Ideal)) := by
  rw [outsAt0_A m c t h0]
  dsimp only
  refine (out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (tblk m c t) (pblk m c t) (qblk m c t)).trans ?_
  rw [pay7_eq, pay3_eq]
  rfl

/-- Accumulator 5 after any later point: the point's scalar added into the slot of what the point before left. -/
theorem stepB5 (c : Dev nD) (t : Fin cfg0.N) (h0 : ¬t.val % 16 = 0) :
    (outsAt0 m c t.val t.isLt).2.2
      = k0_pay5 (F := Ideal) (sc5 m c t) (outsAt0 m c (t.val - 1) (Nat.lt_of_le_of_lt (Nat.sub_le _ _) t.isLt)).2.2 := by
  rw [outsAt0_B m c t h0]
  dsimp only
  refine (out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (tblk m c t) (pblk m c t) (qblk m c t)
      (outsAt0 m c (t.val - 1) (Nat.lt_of_le_of_lt (Nat.sub_le _ _) t.isLt)).1
      (outsAt0 m c (t.val - 1) (Nat.lt_of_le_of_lt (Nat.sub_le _ _) t.isLt)).2.1
      (outsAt0 m c (t.val - 1) (Nat.lt_of_le_of_lt (Nat.sub_le _ _) t.isLt)).2.2).trans ?_
  rw [pay7_eq]
  rfl

/-- So after point `n` accumulator 5 holds, in its slot, the sum of the scalars of its sweep's points up to `n`. -/
theorem acc5 (c : Dev nD) (n : ℕ) (hn : n < cfg0.N) : (outsAt0 m c n hn).2.2 = slot (part (sc5 m c) n) :=
  acc_of_steps (sc5 m c) (fun n hn => (outsAt0 m c n hn).2.2)
    (fun n hn h0 => stepA5 m c ⟨n, hn⟩ h0) (fun n hn h0 => stepB5 m c ⟨n + 1, hn⟩ h0) n hn

end Run

end Cert.KernelIdeal.KVal

end
-- ==== Proof.KFinal.lean ====
/-
  The kernel's three output arrays after the run.

  Each output is a (16, 128) array written back in (8, 128) blocks: block q (rows 8 q … 8 q + 7) by the last point
  of sweep q, the grid point 16 q + 15, and by no other.  What that point writes is its accumulator block: zero but
  for entry (0, 0), which holds the sum of the sweep's 16 point scalars.  So the array is zero but for rows 0 and 8
  of lane 0:

      out[R, l] = (R mod 8 = 0 ∧ l = 0) ? s(16 ⌊R / 8⌋) + … + s(16 ⌊R / 8⌋ + 15) : 0 .

  For each output: the block index at a point, what a flushing point writes as its block of that one whole-array
  function, that the flushing points' blocks cover the array, and the array.
-/
import proofs.«413703_j42777874268646_4_alg».proof.Proof.KAccum

noncomputable section

open scoped BigOperators
open Idealize.ShloMosaic Idealize.ShloMosaic.TcCoe Idealize.SL.Sem
open Idealize.ShloMosaic.Pipeline (Dat)
open Idealize.ShloMosaic.ValueIdx

namespace Cert.KernelIdeal.KVal

open Cert.KernelIdeal Cert.KernelIdeal.Gen

/-! ## The whole-array function -/

/-- The (16, 128) array holding, in lane 0 of row 8 q, the full sum of sweep q, and zero elsewhere. -/
def wholeOf (f : Fin cfg0.N → EReal) : S16x128.Idx → EReal :=
  fun j => if (j 0).val % 8 = 0 ∧ (j 1).val = 0 then part f (16 * ((j 0).val / 8) + 15) else 0

/-- At an index, with the sweep's sum written out over its 16 points. -/
theorem wholeOf_apply (f : Fin cfg0.N → EReal) (j : S16x128.Idx) :
    wholeOf f j = if (j 0).val % 8 = 0 ∧ (j 1).val = 0 then ∑ i : Fin 16, f ⟨16 * ((j 0).val / 8) + i.val, by have hj : (j 0).val < 16 := (j 0).isLt; have hi : i.val < 16 := i.isLt; rw [show cfg0.N = 32 from N_0]; omega⟩ else 0 := by
  have hj : (j 0).val < 16 := (j 0).isLt
  show (if (j 0).val % 8 = 0 ∧ (j 1).val = 0 then part f (16 * ((j 0).val / 8) + 15) else 0) = _
  by_cases h : (j 0).val % 8 = 0 ∧ (j 1).val = 0
  · rw [if_pos h, if_pos h]
    exact part_full f ((j 0).val / 8) (by omega)
  · rw [if_neg h, if_neg h]

/-- The accumulator block of the last point of a sweep is that sweep's block of the whole-array function: entry
    (r, l) of the block is entry (8 ⌊n / 16⌋ + r, l) of the array. -/
theorem slot_eq_wholeOf (f : Fin cfg0.N → EReal) (n : ℕ) (h15 : n % 16 = 15) (x : S8x128.Idx) (k : S16x128.Idx)
    (hk0 : (k 0).val = n / 16 * 8 + 1 * (x 0).val) (hk1 : (k 1).val = 0 * 128 + 1 * (x 1).val) :
    slot (part f n) x = wholeOf f k := by
  have hx0 : (x 0).val < 8 := (x 0).isLt
  show (if (x 0).val = 0 ∧ (x 1).val = 0 then part f n else 0)
    = (if (k 0).val % 8 = 0 ∧ (k 1).val = 0 then part f (16 * ((k 0).val / 8) + 15) else 0)
  have e1 : (n / 16 * 8 + 1 * (x 0).val) % 8 = (x 0).val := by omega
  have e2 : (n / 16 * 8 + 1 * (x 0).val) / 8 = n / 16 := by omega
  have e3 : 16 * (n / 16) + 15 = n := by omega
  have e4 : 0 * 128 + 1 * (x 1).val = (x 1).val := by omega
  rw [hk0, hk1, e1, e2, e3, e4]

section Run

variable (m : (ℓ : Loc nD τ sig) → Buf (Elt Ideal) ℓ)

/-! ## Output 3 -/

/-- The block index of output 3 at point `t`: (⌊t / 16⌋, 0) — decided over the grid. -/
theorem idx3 : ∀ t : Fin cfg0.N, win0_3.index t (0 : Fin 2) = t.val / 16 ∧ win0_3.index t (1 : Fin 2) = 0 :=
  (by decide +kernel : ∀ t : Fin grid0.N, _)

/-- What the last point of a sweep writes back is its block of `wholeOf` of the point scalars: rows 8 ⌊t / 16⌋ … + 7. -/
theorem flushed3 (c : Dev nD) (t : Fin cfg0.N) (hf : (cfg0.win 3).flush t = true) :
    (dats m 0 c).flushed 3 t = ((cfg0.win 3).blk t).view.read (Elt Ideal) (wholeOf (sc3 m c)) := by
  have h15 : t.val % 16 = 15 := (flush0_3 t).mp hf
  obtain ⟨i0, i1⟩ := idx3 t
  show (cfg0.win 3).cut (grid0.coords t) ((dats m 0 c).after 3 t) = _
  rw [after0_3, acc3 m c t.val t.isLt]
  funext y
  show slot (part (sc3 m c) t.val) (win0_3.xinj (grid0.coords t) y)
    = wholeOf (sc3 m c) (((cfg0.win 3).blk t).view.emb y)
  exact slot_eq_wholeOf (sc3 m c) t.val h15 (win0_3.xinj (grid0.coords t) y) (((cfg0.win 3).blk t).view.emb y)
    (by show win0_3.index t (0 : Fin 2) * 8 + 1 * (y 0).val = t.val / 16 * 8 + 1 * (y 0).val; rw [i0])
    (by show win0_3.index t (1 : Fin 2) * 128 + 1 * (y 1).val = 0 * 128 + 1 * (y 1).val; rw [i1])

/-- An index of the array is in point `t`'s block iff each coordinate is in the block's range on its axis. -/
theorem mem_blk3 (t : Fin cfg0.N) (i : S16x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v11_0).slice (win0_3.rect t)).set ↔ _
  rw [View.set_slice_whole, Rect.mem_set_unit]
  exact Iff.rfl

/-- Row R of the array is written back by the last point of sweep ⌊R / 8⌋. -/
theorem cover3 (i : S16x128.Idx) :
    ∃ t : Fin cfg0.N, (cfg0.win 3).flush t = true ∧ i ∈ ((cfg0.win 3).blk t).view.set := by
  have hi0 : (i 0).val < 16 := (i 0).isLt
  have hi1 : (i 1).val < 128 := (i 1).isLt
  have hN : cfg0.N = 32 := N_0
  obtain ⟨t, ht⟩ : ∃ t : Fin cfg0.N, t.val = 16 * ((i 0).val / 8) + 15 := ⟨⟨16 * ((i 0).val / 8) + 15, by rw [hN]; omega⟩, rfl⟩
  obtain ⟨e0, e1⟩ := idx3 t
  refine ⟨t, (flush0_3 t).mpr (by rw [ht]; omega), ?_⟩
  rw [mem_blk3]
  intro a
  match a with
  | ⟨0, _⟩ =>
    show win0_3.index t (0 : Fin 2) * 8 ≤ (i 0).val ∧ (i 0).val < win0_3.index t (0 : Fin 2) * 8 + 8
    rw [e0, ht]; omega
  | ⟨1, _⟩ =>
    show win0_3.index t (1 : Fin 2) * 128 ≤ (i 1).val ∧ (i 1).val < win0_3.index t (1 : Fin 2) * 128 + 128
    rw [e1]; omega

/-- OUTPUT 3 AFTER THE RUN: row 8 q holds in lane 0 the sum of sweep q's 16 point scalars; every other entry is zero. -/
theorem final3 (c : Dev nD) (j : S16x128.Idx) : ((dats m 0 c).arrAt 3 cfg0.N : S16x128.Idx → EReal) j
      = if (j 0).val % 8 = 0 ∧ (j 1).val = 0 then ∑ i : Fin 16, sc3 m c ⟨16 * ((j 0).val / 8) + i.val, by have hj : (j 0).val < 16 := (j 0).isLt; have hi : i.val < 16 := i.isLt; rw [show cfg0.N = 32 from N_0]; omega⟩ else 0 := by
  have h := (dats m 0 c).arrAt_eq_of_cover 3 (wholeOf (sc3 m c)) (flushed3 m c) (fun i => cover3 i)
  exact (congrFun h j).trans (wholeOf_apply (sc3 m c) j)

/-! ## Output 4 -/

/-- The block index of output 4 at point `t`: (⌊t / 16⌋, 0) — decided over the grid. -/
theorem idx4 : ∀ t : Fin cfg0.N, win0_4.index t (0 : Fin 2) = t.val / 16 ∧ win0_4.index t (1 : Fin 2) = 0 :=
  (by decide +kernel : ∀ t : Fin grid0.N, _)

/-- What the last point of a sweep writes back is its block of `wholeOf` of the point scalars: rows 8 ⌊t / 16⌋ … + 7. -/
theorem flushed4 (c : Dev nD) (t : Fin cfg0.N) (hf : (cfg0.win 4).flush t = true) :
    (dats m 0 c).flushed 4 t = ((cfg0.win 4).blk t).view.read (Elt Ideal) (wholeOf (sc4 m c)) := by
  have h15 : t.val % 16 = 15 := (flush0_4 t).mp hf
  obtain ⟨i0, i1⟩ := idx4 t
  show (cfg0.win 4).cut (grid0.coords t) ((dats m 0 c).after 4 t) = _
  rw [after0_4, acc4 m c t.val t.isLt]
  funext y
  show slot (part (sc4 m c) t.val) (win0_4.xinj (grid0.coords t) y)
    = wholeOf (sc4 m c) (((cfg0.win 4).blk t).view.emb y)
  exact slot_eq_wholeOf (sc4 m c) t.val h15 (win0_4.xinj (grid0.coords t) y) (((cfg0.win 4).blk t).view.emb y)
    (by show win0_4.index t (0 : Fin 2) * 8 + 1 * (y 0).val = t.val / 16 * 8 + 1 * (y 0).val; rw [i0])
    (by show win0_4.index t (1 : Fin 2) * 128 + 1 * (y 1).val = 0 * 128 + 1 * (y 1).val; rw [i1])

/-- An index of the array is in point `t`'s block iff each coordinate is in the block's range on its axis. -/
theorem mem_blk4 (t : Fin cfg0.N) (i : S16x128.Idx) :
    i ∈ ((cfg0.win 4).blk t).view.set ↔ ∀ a : Fin 2, win0_4.index t a * S8x128.size a ≤ (i a).val
      ∧ (i a).val < win0_4.index t a * S8x128.size a + S8x128.size a := by
  show i ∈ ((View.whole main_v11_1).slice (win0_4.rect t)).set ↔ _
  rw [View.set_slice_whole, Rect.mem_set_unit]
  exact Iff.rfl

/-- Row R of the array is written back by the last point of sweep ⌊R / 8⌋. -/
theorem cover4 (i : S16x128.Idx) :
    ∃ t : Fin cfg0.N, (cfg0.win 4).flush t = true ∧ i ∈ ((cfg0.win 4).blk t).view.set := by
  have hi0 : (i 0).val < 16 := (i 0).isLt
  have hi1 : (i 1).val < 128 := (i 1).isLt
  have hN : cfg0.N = 32 := N_0
  obtain ⟨t, ht⟩ : ∃ t : Fin cfg0.N, t.val = 16 * ((i 0).val / 8) + 15 := ⟨⟨16 * ((i 0).val / 8) + 15, by rw [hN]; omega⟩, rfl⟩
  obtain ⟨e0, e1⟩ := idx4 t
  refine ⟨t, (flush0_4 t).mpr (by rw [ht]; omega), ?_⟩
  rw [mem_blk4]
  intro a
  match a with
  | ⟨0, _⟩ =>
    show win0_4.index t (0 : Fin 2) * 8 ≤ (i 0).val ∧ (i 0).val < win0_4.index t (0 : Fin 2) * 8 + 8
    rw [e0, ht]; omega
  | ⟨1, _⟩ =>
    show win0_4.index t (1 : Fin 2) * 128 ≤ (i 1).val ∧ (i 1).val < win0_4.index t (1 : Fin 2) * 128 + 128
    rw [e1]; omega

/-- OUTPUT 4 AFTER THE RUN: row 8 q holds in lane 0 the sum of sweep q's 16 point scalars; every other entry is zero. -/
theorem final4 (c : Dev nD) (j : S16x128.Idx) : ((dats m 0 c).arrAt 4 cfg0.N : S16x128.Idx → EReal) j
      = if (j 0).val % 8 = 0 ∧ (j 1).val = 0 then ∑ i : Fin 16, sc4 m c ⟨16 * ((j 0).val / 8) + i.val, by have hj : (j 0).val < 16 := (j 0).isLt; have hi : i.val < 16 := i.isLt; rw [show cfg0.N = 32 from N_0]; omega⟩ else 0 := by
  have h := (dats m 0 c).arrAt_eq_of_cover 4 (wholeOf (sc4 m c)) (flushed4 m c) (fun i => cover4 i)
  exact (congrFun h j).trans (wholeOf_apply (sc4 m c) j)

/-! ## Output 5 -/

/-- The block index of output 5 at point `t`: (⌊t / 16⌋, 0) — decided over the grid. -/
theorem idx5 : ∀ t : Fin cfg0.N, win0_5.index t (0 : Fin 2) = t.val / 16 ∧ win0_5.index t (1 : Fin 2) = 0 :=
  (by decide +kernel : ∀ t : Fin grid0.N, _)

/-- What the last point of a sweep writes back is its block of `wholeOf` of the point scalars: rows 8 ⌊t / 16⌋ … + 7. -/
theorem flushed5 (c : Dev nD) (t : Fin cfg0.N) (hf : (cfg0.win 5).flush t = true) :
    (dats m 0 c).flushed 5 t = ((cfg0.win 5).blk t).view.read (Elt Ideal) (wholeOf (sc5 m c)) := by
  have h15 : t.val % 16 = 15 := (flush0_5 t).mp hf
  obtain ⟨i0, i1⟩ := idx5 t
  show (cfg0.win 5).cut (grid0.coords t) ((dats m 0 c).after 5 t) = _
  rw [after0_5, acc5 m c t.val t.isLt]
  funext y
  show slot (part (sc5 m c) t.val) (win0_5.xinj (grid0.coords t) y)
    = wholeOf (sc5 m c) (((cfg0.win 5).blk t).view.emb y)
  exact slot_eq_wholeOf (sc5 m c) t.val h15 (win0_5.xinj (grid0.coords t) y) (((cfg0.win 5).blk t).view.emb y)
    (by show win0_5.index t (0 : Fin 2) * 8 + 1 * (y 0).val = t.val / 16 * 8 + 1 * (y 0).val; rw [i0])
    (by show win0_5.index t (1 : Fin 2) * 128 + 1 * (y 1).val = 0 * 128 + 1 * (y 1).val; rw [i1])

/-- An index of the array is in point `t`'s block iff each coordinate is in the block's range on its axis. -/
theorem mem_blk5 (t : Fin cfg0.N) (i : S16x128.Idx) :
    i ∈ ((cfg0.win 5).blk t).view.set ↔ ∀ a : Fin 2, win0_5.index t a * S8x128.size a ≤ (i a).val
      ∧ (i a).val < win0_5.index t a * S8x128.size a + S8x128.size a := by
  show i ∈ ((View.whole main_v11_2).slice (win0_5.rect t)).set ↔ _
  rw [View.set_slice_whole, Rect.mem_set_unit]
  exact Iff.rfl

/-- Row R of the array is written back by the last point of sweep ⌊R / 8⌋. -/
theorem cover5 (i : S16x128.Idx) :
    ∃ t : Fin cfg0.N, (cfg0.win 5).flush t = true ∧ i ∈ ((cfg0.win 5).blk t).view.set := by
  have hi0 : (i 0).val < 16 := (i 0).isLt
  have hi1 : (i 1).val < 128 := (i 1).isLt
  have hN : cfg0.N = 32 := N_0
  obtain ⟨t, ht⟩ : ∃ t : Fin cfg0.N, t.val = 16 * ((i 0).val / 8) + 15 := ⟨⟨16 * ((i 0).val / 8) + 15, by rw [hN]; omega⟩, rfl⟩
  obtain ⟨e0, e1⟩ := idx5 t
  refine ⟨t, (flush0_5 t).mpr (by rw [ht]; omega), ?_⟩
  rw [mem_blk5]
  intro a
  match a with
  | ⟨0, _⟩ =>
    show win0_5.index t (0 : Fin 2) * 8 ≤ (i 0).val ∧ (i 0).val < win0_5.index t (0 : Fin 2) * 8 + 8
    rw [e0, ht]; omega
  | ⟨1, _⟩ =>
    show win0_5.index t (1 : Fin 2) * 128 ≤ (i 1).val ∧ (i 1).val < win0_5.index t (1 : Fin 2) * 128 + 128
    rw [e1]; omega

/-- OUTPUT 5 AFTER THE RUN: row 8 q holds in lane 0 the sum of sweep q's 16 point scalars; every other entry is zero. -/
theorem final5 (c : Dev nD) (j : S16x128.Idx) : ((dats m 0 c).arrAt 5 cfg0.N : S16x128.Idx → EReal) j
      = if (j 0).val % 8 = 0 ∧ (j 1).val = 0 then ∑ i : Fin 16, sc5 m c ⟨16 * ((j 0).val / 8) + i.val, by have hj : (j 0).val < 16 := (j 0).isLt; have hi : i.val < 16 := i.isLt; rw [show cfg0.N = 32 from N_0]; omega⟩ else 0 := by
  have h := (dats m 0 c).arrAt_eq_of_cover 5 (wholeOf (sc5 m c)) (flushed5 m c) (fun i => cover5 i)
  exact (congrFun h j).trans (wholeOf_apply (sc5 m c) j)

end Run

end Cert.KernelIdeal.KVal

end
-- ==== Proof.SpecLemmas.lean ====
/-
  Arithmetic and re-indexing facts behind the loss.

  The column table of one row (8 header columns carrying 2049, then column 8 + 8a + f carrying the action slot a), the
  bound on a count truncated to 32 bits, and three finite sums re-indexed: the 16392 columns of a row into header +
  (action slot, feature); the 4096 rows into the 2·16 blocks of 128 rows; a (16,128) array whose only nonzero
  entries are (0,0) and (8,0).  No finiteness is used: the extended reals are an additive commutative monoid.
-/
import proofs.«413703_j42777874268646_4_alg».proof.Proof.Spec
import Mathlib.Algebra.BigOperators.Fin
import Mathlib.Data.Fintype.BigOperators
import Mathlib.Logic.Equiv.Fin.Basic
import Mathlib.Algebra.Order.Floor.Ring
import Mathlib.Data.EReal.Basic

noncomputable section

namespace Cert.Spec

open Idealize.ShloMosaic Idealize.ShloMosaic.ValueIdx
open scoped BigOperators

/-! ## Words -/

/-- A 32-bit word made from a natural number below 2^31 reads back, signed, as that number. -/
theorem toInt_ofNat_of_lt (k : ℕ) (hk : k < 2147483648) : (BitVec.ofNat 32 k).toInt = (k : ℤ) := by
  rw [BitVec.toInt_eq_toNat_cond, BitVec.toNat_ofNat]
  split <;> omega

/-- The column table: the 8 header columns carry 2049 (above every count), column 8 + 8a + f carries a. -/
def tblVal (col : Fin 16392) : BitVec 32 :=
  if col.val < 8 then 2049#32 else BitVec.ofNat 32 ((col.val - 8) / 8)

/-- A header column's table value is 2049. -/
theorem tblVal_toInt_header (col : Fin 16392) (h : col.val < 8) : (tblVal col).toInt = 2049 := by
  rw [tblVal, if_pos h]
  exact toInt_ofNat_of_lt 2049 (by omega)

/-- The column of action slot a, feature f carries a. -/
theorem tblVal_toInt_action (a : Fin 2048) (f : Fin 8) (h : 8 + 8 * a.val + f.val < 16392) :
    (tblVal ⟨8 + 8 * a.val + f.val, h⟩).toInt = (a.val : ℤ) := by
  have ha := a.isLt
  have hf := f.isLt
  have hnot : ¬ (8 + 8 * a.val + f.val < 8) := by omega
  have hdiv : (8 + 8 * a.val + f.val - 8) / 8 = a.val := by omega
  show (if 8 + 8 * a.val + f.val < 8 then 2049#32
    else BitVec.ofNat 32 ((8 + 8 * a.val + f.val - 8) / 8)).toInt = (a.val : ℤ)
  rw [if_neg hnot, hdiv]
  exact toInt_ofNat_of_lt a.val (by omega)

/-! ## The truncated count -/

/-- Truncation toward zero with clamping never exceeds an integer bound that the argument and the lower clamp respect. -/
theorem toIntClamped_le_2048 (lo hi : ℤ) (hlo : lo ≤ 2048) (x : EReal) (h : x ≤ ((2048 : ℝ) : EReal)) :
    Ideal.toIntClamped lo hi x ≤ 2048 := by
  induction x with
  | bot => simpa using hlo
  | coe r =>
    have hr : r ≤ 2048 := EReal.coe_le_coe_iff.mp h
    rw [Ideal.toIntClamped_coe]
    have hz : (if 0 ≤ r then ⌊r⌋ else ⌈r⌉) ≤ 2048 := by
      split
      · exact Int.floor_le_iff.mpr (by push_cast; linarith)
      · exact Int.ceil_le.mpr (by push_cast; exact hr)
    exact max_le hlo (le_trans (min_le_right _ _) hz)
  | top => exact absurd h (by simp)

/-- The clamped truncation stays above its lower clamp. -/
theorem le_toIntClamped (lo hi : ℤ) (hlh : lo ≤ hi) (x : EReal) : lo ≤ Ideal.toIntClamped lo hi x := by
  induction x with
  | bot => simp
  | coe r => rw [Ideal.toIntClamped_coe]; exact le_max_left _ _
  | top => simpa using hlh

/-- A count that is at most 2048 as an extended real is at most 2048 as a 32-bit signed word. -/
theorem fptosi_toInt_le (x : EReal) (h : x ≤ ((2048 : ℝ) : EReal)) : (Ideal.fptosi 32 x).toInt ≤ 2048 := by
  have hlo : (-((2 ^ (32 - 1) : ℕ) : ℤ)) ≤ 2048 := by norm_num
  have hlh : (-((2 ^ (32 - 1) : ℕ) : ℤ)) ≤ ((2 ^ (32 - 1) : ℕ) : ℤ) - 1 := by norm_num
  have h1 := toIntClamped_le_2048 _ (((2 ^ (32 - 1) : ℕ) : ℤ) - 1) hlo x h
  have h2 := le_toIntClamped _ _ hlh x
  rw [Ideal.fptosi, BitVec.toInt_ofInt_eq_self (w := 32) (by decide)]
  · exact h1
  · first | omega | (norm_num at h2 ⊢ <;> omega)
  · first | omega | (norm_num at h1 ⊢ <;> omega)

/-! ## Re-indexing finite sums -/

theorem mul_add_lt {m n N : ℕ} (h : m * n = N) (a : Fin m) (r : Fin n) : n * a.val + r.val < N := by
  have h1 : n * a.val + n ≤ n * m := by
    have := Nat.mul_le_mul_left n (Nat.succ_le_of_lt a.isLt)
    rw [Nat.mul_succ] at this
    exact this
  have h2 := r.isLt
  rw [← h, Nat.mul_comm m n]
  omega

/-- A sum over m·n indices is the double sum over quotient and remainder. -/
theorem sum_fin_mul {M : Type*} [AddCommMonoid M] {m n N : ℕ} (h : m * n = N) (G : Fin N → M) :
    ∑ b : Fin N, G b = ∑ a : Fin m, ∑ r : Fin n, G ⟨n * a.val + r.val, mul_add_lt h a r⟩ := by
  subst h
  rw [← Equiv.sum_comp finProdFinEquiv G, Fintype.sum_prod_type]
  refine Finset.sum_congr rfl fun a _ => Finset.sum_congr rfl fun r _ => ?_
  exact congrArg G (Fin.ext (by rw [finProdFinEquiv_apply_val]; exact Nat.add_comm _ _))

/-- A sum over m+n indices is the sum over the first m plus the sum over the last n. -/
theorem sum_fin_add {M : Type*} [AddCommMonoid M] {m n N : ℕ} (h : m + n = N) (G : Fin N → M) :
    ∑ b : Fin N, G b
      = ∑ a : Fin m, G ⟨a.val, by have := a.isLt; omega⟩ + ∑ r : Fin n, G ⟨m + r.val, by have := r.isLt; omega⟩ := by
  subst h
  exact Fin.sum_univ_add G

/-- The masked sum over the 16392 columns of one row is the masked sum over the 2048 action slots and their 8 features:
    the header columns carry 2049, above every admissible count, and drop out. -/
theorem row_split (g : Fin 16392 → EReal) (n : ℤ) (hn : n ≤ 2048) :
    (∑ col : Fin 16392, if (tblVal col).toInt < n then g col else 0)
      = ∑ a : Fin 2048, ∑ f : Fin 8, if (a.val : ℤ) < n then g ⟨8 + 8 * a.val + f.val, by omega⟩ else 0 := by
  rw [sum_fin_add (M := EReal) (m := 8) (n := 16384) (N := 16392) (by norm_num), Finset.sum_eq_zero, zero_add]
  · rw [sum_fin_mul (M := EReal) (m := 2048) (n := 8) (N := 16384) (by norm_num)]
    refine Finset.sum_congr rfl fun a _ => Finset.sum_congr rfl fun f _ => ?_
    have ha := a.isLt
    have hf := f.isLt
    have hb : 8 + 8 * a.val + f.val < 16392 := by omega
    have key : ∀ (X : Fin 16392), X.val = 8 + 8 * a.val + f.val →
        (if (tblVal X).toInt < n then g X else 0)
          = if (a.val : ℤ) < n then g ⟨8 + 8 * a.val + f.val, hb⟩ else 0 := by
      intro X hX
      obtain rfl : X = ⟨8 + 8 * a.val + f.val, hb⟩ := Fin.ext hX
      rw [tblVal_toInt_action a f]
    exact key _ (by show 8 + (8 * a.val + f.val) = 8 + 8 * a.val + f.val; omega)
  · intro a _
    have ha := a.isLt
    rw [tblVal_toInt_header ⟨a.val, by omega⟩ ha, if_neg (by omega)]

/-- The 4096 rows are the 128 rows of each of the 2·16 grid points' blocks. -/
theorem grid_sum (g : Fin 4096 → EReal) :
    (∑ c : Fin 2, ∑ i : Fin 16, ∑ r : Fin 128, g ⟨128 * (16 * c.val + i.val) + r.val, by omega⟩)
      = ∑ b : Fin 4096, g b :=
  ((sum_fin_mul (m := 32) (n := 128) (N := 4096) (by norm_num) g).trans
    (sum_fin_mul (m := 2) (n := 16) (N := 32) (by norm_num) _)).symm

/-- A (16,128) array that is zero except at entries (0,0) and (8,0) sums to those two entries. -/
theorem sum_slot (x : Fin 2 → EReal) :
    (∑ j : (⟨2, ![16, 128]⟩ : Shape).Idx,
        if (j 0).val % 8 = 0 ∧ (j 1).val = 0 then x ⟨(j 0).val / 8, by have := idx2_lt0 j; omega⟩ else 0)
      = x 0 + x 1 := by
  have hne : (ix2 (0 : Fin 16) (0 : Fin 128)) ≠ ix2 (8 : Fin 16) (0 : Fin 128) := by
    intro h
    have h0 := congrFun h 0
    exact absurd h0 (by decide)
  have c0 : ((ix2 (0 : Fin 16) (0 : Fin 128)) 0).val % 8 = 0 ∧ ((ix2 (0 : Fin 16) (0 : Fin 128)) 1).val = 0 :=
    ⟨rfl, rfl⟩
  have c8 : ((ix2 (8 : Fin 16) (0 : Fin 128)) 0).val % 8 = 0 ∧ ((ix2 (8 : Fin 16) (0 : Fin 128)) 1).val = 0 :=
    ⟨rfl, rfl⟩
  rw [Fintype.sum_eq_add (ix2 (0 : Fin 16) (0 : Fin 128)) (ix2 (8 : Fin 16) (0 : Fin 128)) hne]
  · rw [if_pos c0, if_pos c8]
    first | done | rfl
  · rintro j ⟨h0, h8⟩
    rw [if_neg]
    rintro ⟨hm, h1⟩
    have hlt := idx2_lt0 j
    have hj := eq_ix2 j
    have e1 : j 1 = (0 : Fin 128) := Fin.ext h1
    rcases (by omega : (j 0).val = 0 ∨ (j 0).val = 8) with hv | hv
    · have e0 : j 0 = (0 : Fin 16) := Fin.ext hv
      exact h0 (by rw [hj, e0, e1]; first | rfl | decide)
    · have e0 : j 0 = (8 : Fin 16) := Fin.ext hv
      exact h8 (by rw [hj, e0, e1]; first | rfl | decide)

end Cert.Spec

end
-- ==== Proof.KTable.lean ====
/-
  The action-index table the program builds before the call.  Column `col` of the (1, 16392) table holds 2049 on the
  eight header columns and (col - 8) / 8, the action slot the column belongs to, on the others.  The host operations
  compute it as  where(col < 8, 2049, floor_divide(where(col < 8, 8, col) - 8, 8))  on 32-bit words, floor_divide
  being the truncated signed quotient less one when the signs of dividend and divisor differ and the remainder is not
  zero.  The dividends met here are nonnegative, so the correction never fires and the quotient is the natural
  numbers'.
-/
import proofs.«413703_j42777874268646_4_alg».proof.Proof.Gen.KernelIdeal.Frame
import proofs.«413703_j42777874268646_4_alg».proof.Proof.Spec
import proofs.«413703_j42777874268646_4_alg».proof.Proof.SpecLemmas
import Idealize.ShloMosaic.Lib.ValueIdx
import Idealize.ShloMosaic.Lib.Affine
import Idealize.ShloMosaic.Lib.WordArith
import Idealize.ShloMosaic.Lib.Pipeline.Value
import Idealize.ShloMosaic.Lib.StableHlo.Run

noncomputable section

namespace Cert.KernelIdeal.KVal

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

namespace Tbl

/-! ## The integer chain on one word -/

/-- The sign word of a 32-bit integer: 0, -1 or 1. -/
def sgn (a : BitVec 32) : BitVec 32 := if a = 0 then 0 else if a.msb then -1 else 1

/-- The floored quotient by 8 as the host computes it: the truncated signed quotient, less one when the signs of dividend and
    divisor differ and the remainder is not zero. -/
def floorDiv8 (s : BitVec 32) : BitVec 32 :=
  Scalar.select
    (IntOp.andi (IntOp.cmpi .ne (sgn s) (sgn 8#32)) (IntOp.cmpi .ne (IntOp.remsi .host s 8#32) 0#32))
    (IntOp.subi (IntOp.divsi .host s 8#32) 1#32)
    (IntOp.divsi .host s 8#32)

/-- One entry of the table as computed from the column number's word `x`:
    `where(x < 8, 2049, floor_divide(where(x < 8, 8, x) - 8, 8))`. -/
def tblWord (x : BitVec 32) : BitVec 32 :=
  Scalar.select (IntOp.cmpi .slt x 8#32) 2049#32
    (floorDiv8 (IntOp.subi (Scalar.select (IntOp.cmpi .slt x 8#32) 8#32 x) 8#32))

theorem sgn_eight : sgn 8#32 = 1#32 := by decide

theorem sgn_pos (k : ℕ) (h0 : 0 < k) (hk : k < 2 ^ 31) : sgn (BitVec.ofNat 32 k) = 1#32 := by
  have hne : BitVec.ofNat 32 k ≠ 0 := by
    intro h
    have h' : (BitVec.ofNat 32 k).toNat = (0 : BitVec 32).toNat := congrArg BitVec.toNat h
    rw [WordArith.toNat_ofNat_of_lt k (by omega)] at h'
    simp at h'
    omega
  have hm : (BitVec.ofNat 32 k).msb = false :=
    BitVec.msb_eq_false_iff_two_mul_lt.mpr (by rw [WordArith.toNat_ofNat_of_lt k (by omega)]; omega)
  unfold sgn
  rw [if_neg hne, hm] <;> rfl

/-- The truncated signed quotient of a nonnegative word by 8 is the natural numbers' quotient. -/
theorem divsi8_ofNat (k : ℕ) (hk : k < 2 ^ 31) :
    IntOp.divsi .host (BitVec.ofNat 32 k) 8#32 = BitVec.ofNat 32 (k / 8) := by
  have hcorner : ¬ IntOp.SDivCorner (BitVec.ofNat 32 k) 8#32 := IntOp.not_corner_of_pos (by decide)
  have hm : (BitVec.ofNat 32 k).msb = false :=
    BitVec.msb_eq_false_iff_two_mul_lt.mpr (by rw [WordArith.toNat_ofNat_of_lt k (by omega)]; omega)
  apply BitVec.eq_of_toNat_eq
  simp only [IntOp.divsi, if_neg hcorner, BitVec.sdiv_eq, hm, show (8#32 : BitVec 32).msb = false from by decide, BitVec.udiv_eq,
    BitVec.toNat_udiv, BitVec.toNat_ofNat, Nat.reducePow, Nat.reduceMod]
  all_goals omega

/-- On a nonnegative dividend the floor correction never fires: with the dividend zero the remainder is zero, otherwise
    the signs agree. -/
theorem floorDiv8_ofNat (k : ℕ) (hk : k < 2 ^ 31) : floorDiv8 (BitVec.ofNat 32 k) = BitVec.ofNat 32 (k / 8) := by
  have hc : ¬ IntOp.andi (IntOp.cmpi .ne (sgn (BitVec.ofNat 32 k)) (sgn 8#32))
      (IntOp.cmpi .ne (IntOp.remsi .host (BitVec.ofNat 32 k) 8#32) 0#32) = 1#1 := by
    rw [IntOp.andi_eq_one, IntOp.cmpi_ne, IntOp.cmpi_ne]
    rintro ⟨hs, hr⟩
    rcases Nat.eq_zero_or_pos k with h0 | h0
    · subst h0
      exact hr (by decide)
    · exact hs (by rw [sgn_pos k h0 hk, sgn_eight])
  exact (if_neg hc).trans (divsi8_ofNat k hk)

/-- The table's entry at column `n`: 2049 on the eight header columns, the action slot `(n - 8) / 8` after them. -/
theorem tblWord_ofNat (n : ℕ) (hn : n < 16392) :
    tblWord (BitVec.ofNat 32 n) = if n < 8 then 2049#32 else BitVec.ofNat 32 ((n - 8) / 8) := by
  have hlt : IntOp.cmpi .slt (BitVec.ofNat 32 n) 8#32 = 1#1 ↔ n < 8 := by
    rw [IntOp.cmpi_slt, WordArith.toInt_ofNat_small n (by omega), show (8#32 : BitVec 32).toInt = 8 from by decide]
    omega
  unfold tblWord
  by_cases h : n < 8
  · rw [if_pos h, hlt.mpr h]
    exact select_one _ _
  · have h0 : IntOp.cmpi .slt (BitVec.ofNat 32 n) 8#32 = 0#1 := eq_zero_of_ne_one (fun e => h (hlt.mp e))
    have hs : IntOp.subi (BitVec.ofNat 32 n) 8#32 = BitVec.ofNat 32 (n - 8) := by
      unfold IntOp.subi
      apply BitVec.eq_of_toNat_eq
      simp only [BitVec.toNat_sub, BitVec.toNat_ofNat]
      omega
    rw [if_neg h, h0, select_zero, select_zero, hs]
    exact floorDiv8_ofNat (n - 8) (by omega)

/-! ## The table as the host operations build it -/

/-- A scalar word broadcast over the 16392 columns. -/
abbrev splat (x : IVec S_ 32) : IVec S16392 32 := broadcastInDim S16392 ![] bcast_S_S16392 x

/-- The column numbers 0 … 16391 as words. -/
abbrev colNo : IVec S16392 32 := iotaInDim S16392 32 0

/-- The header columns: those below 8. -/
abbrev isHdr : IVec S16392 1 := cmpi .slt colNo (splat (constantI S_ 32 8#32))

/-- The floored quotient by 8, column by column. -/
abbrev fdiv8 (x : IVec S16392 32) : IVec S16392 32 :=
  select
    (andi (cmpi .ne (signi x) (splat (signi (constantI S_ 32 8#32))))
      (cmpi .ne (Host.remsi x (splat (constantI S_ 32 8#32))) (splat (constantI S_ 32 0#32))))
    (subi (Host.divsi x (splat (constantI S_ 32 8#32))) (splat (constantI S_ 32 1#32)))
    (Host.divsi x (splat (constantI S_ 32 8#32)))

/-- The table before its reshape to one row. -/
abbrev tblFlat : IVec S16392 32 :=
  select isHdr (splat (constantI S_ 32 2049#32))
    (fdiv8 (subi (select isHdr (splat (constantI S_ 32 8#32)) colNo) (splat (constantI S_ 32 8#32))))

set_option maxHeartbeats 2000000 in
/-- The table's buffer when the call starts is the host operations' term. -/
theorem v10_eq (c : Dev nD) :
    (V m c main_v10 : IVec S1x16392 32) = shapeCast S1x16392 tblFlat shapeCasts_S16392_S1x16392 := by
  dsimp only [V, V0]
  simp only [hostOps0, hostOps0_1, hostOps0_2, hostOps0_3, hostOps0_4, hostOps0_5, hostOps0_6, List.flatten_cons,
    List.flatten_nil, List.append_nil, List.cons_append, List.nil_append]
  after_results_simp <;> (try simp only [StableHlo.TRef.ofBuf, StableHlo.TRef.toBuf, cast_eq]) <;> rfl

/-- The flat table at a column is the integer chain on the column number's word. -/
theorem tblFlat_apply (col : Fin 16392) : tblFlat (ix1 col) = tblWord (BitVec.ofNat 32 col.val) := rfl

end Tbl

open Tbl in
/-- The table at column `col`: 2049 on the eight header columns, the action slot `(col - 8) / 8` after them. -/
theorem table_eq (c : Dev nD) (col : Fin 16392) :
    (V m c main_v10 : IVec S1x16392 32) (ValueIdx.ix2 (0 : Fin 1) col) = Cert.Spec.tblVal col := by
  rw [v10_eq m c, shapeCast_apply tblFlat shapeCasts_S16392_S1x16392 (ix2 (0 : Fin 1) col) (ix1 col)
    (by rw [Shape.rowMajor_val_one, Shape.rowMajor_val_two]
        show col.val = (0 : Fin 1).val * 16392 + col.val
        first | omega | simp)]
  exact (tblFlat_apply col).trans (tblWord_ofNat col.val col.isLt)

end Cert.KernelIdeal.KVal

end
-- ==== Proof.KBlocks.lean ====
/-
  The kernel's input blocks, read at an index.

  At grid point t the kernel's three input windows hold: the whole column table (its window never moves), and rows
  128 t … 128 t + 127, all 16392 columns, of the two inputs flattened to (4096, 16392).  The flattening is the
  row-major reshape of (4096, 2049, 8), so column col of a flattened sample is slot col / 8, feature col % 8.

    tblk[0, col]  =  tblVal col
    pblk[r, col]  =  P[128 t + r, col / 8, col % 8]
    qblk[r, col]  =  T[128 t + r, col / 8, col % 8]

  Each is three steps: the block's element sits in the staged array at block index × block size + its own
  coordinate (the index maps decided once over the 32 grid points); the staged array is the reshape of the launched
  input (the host operations before the region, of which only the reshape writes it); and the reshape read at
  (row, col) is the input at the same row-major position.
-/
import proofs.«413703_j42777874268646_4_alg».proof.Proof.Gen.KernelIdeal.Frame.Runs
import proofs.«413703_j42777874268646_4_alg».proof.Proof.Spec
import proofs.«413703_j42777874268646_4_alg».proof.Proof.KPieces
import proofs.«413703_j42777874268646_4_alg».proof.Proof.KTable
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The two inputs as launched, and the coordinates of a block entry in them -/

/-- The predictions as launched. -/
abbrev P (c : Dev nD) : Cert.Spec.SIn.Idx → EReal := m ((c : Thread nD τ).loc main_arg0)
/-- The targets as launched. -/
abbrev T (c : Dev nD) : Cert.Spec.SIn.Idx → EReal := m ((c : Thread nD τ).loc main_arg1)

theorem row_lt (t : Fin cfg0.N) (r : Fin 128) : 128 * t.val + r.val < 4096 := by
  have hN : cfg0.N = 32 := N_0
  have h1 := t.isLt
  have h2 := r.isLt
  omega
theorem act_lt (col : Fin 16392) : col.val / 8 < 2049 := by
  have h := col.isLt
  omega
theorem feat_lt (col : Fin 16392) : col.val % 8 < 8 := Nat.mod_lt _ (by decide)

/-- Row `r` of block `t` is sample `128 t + r`. -/
abbrev rowOf (t : Fin cfg0.N) (r : Fin 128) : Fin 4096 := ⟨128 * t.val + r.val, row_lt t r⟩
/-- Column `col` of the flattened sample is slot `col / 8` … -/
abbrev actOf (col : Fin 16392) : Fin 2049 := ⟨col.val / 8, act_lt col⟩
/-- … feature `col % 8`. -/
abbrev featOf (col : Fin 16392) : Fin 8 := ⟨col.val % 8, feat_lt col⟩

/-! ## The index maps, decided once over the grid -/

/-- The table's window stays at block (0, 0). -/
theorem idx_tbl : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
/-- The predictions' window at point `t` is row block `t`, all columns. -/
theorem idx_p : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- The targets' window likewise. -/
theorem idx_q : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-! ## The staged arrays: the reshapes of the inputs -/

/-- The array the predictions' window stages is the (4096, 16392) reshape of the predictions. -/
theorem V_main_v0 (c : Dev nD) : (V m c main_v0 : S4096x16392.Idx → EReal)
    = shapeCast S4096x16392 (P m c) shapeCasts_S4096x2049x8_S4096x16392 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl
/-- The array the targets' window stages is the (4096, 16392) reshape of the targets. -/
theorem V_main_v1 (c : Dev nD) : (V m c main_v1 : S4096x16392.Idx → EReal)
    = shapeCast S4096x16392 (T m c) shapeCasts_S4096x2049x8_S4096x16392 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-- The reshape read at (row, col): the input at (row, col / 8, col % 8), the same row-major position. -/
theorem reshape_apply (x : Cert.Spec.SIn.Idx → EReal) (b : Fin 4096) (col : Fin 16392) :
    shapeCast S4096x16392 x shapeCasts_S4096x2049x8_S4096x16392 (ix2 b col) = x (ix3 b (actOf col) (featOf col)) := by
  refine shapeCast_apply x shapeCasts_S4096x2049x8_S4096x16392 (ix2 b col) (ix3 b (actOf col) (featOf col)) ?_
  rw [Shape.rowMajor_val_three, Shape.rowMajor_val_two]
  show (b.val * 2049 + col.val / 8) * 8 + col.val % 8 = b.val * 16392 + col.val
  omega

/-! ## The blocks read at an index -/

/-- Block `t` of the predictions' window sits in its array at rows `128 t …`, all columns. -/
theorem pblk_read (c : Dev nD) (t : Fin cfg0.N) (r : Fin 128) (col : Fin 16392) :
    pblk m c t (ix2 r col) = (V m c main_v0 : S4096x16392.Idx → EReal) (ix2 (rowOf t r) col) := by
  have hi := idx_p t
  show iblk m c 1 t (ix2 r col) = _
  unfold iblk
  rw [View.read_apply]
  show V m c main_v0 _ = V m c main_v0 _
  congr 1
  funext a
  apply Fin.ext
  match a with
  | ⟨0, _⟩ => show win0_1.index t (0 : Fin 2) * 128 + 1 * r.val = 128 * t.val + r.val; rw [hi.1]; omega
  | ⟨1, _⟩ => show win0_1.index t (1 : Fin 2) * 16392 + 1 * col.val = col.val; rw [hi.2]; omega

/-- Block `t` of the targets' window likewise. -/
theorem qblk_read (c : Dev nD) (t : Fin cfg0.N) (r : Fin 128) (col : Fin 16392) :
    qblk m c t (ix2 r col) = (V m c main_v1 : S4096x16392.Idx → EReal) (ix2 (rowOf t r) col) := by
  have hi := idx_q t
  show iblk m c 2 t (ix2 r col) = _
  unfold iblk
  rw [View.read_apply]
  show V m c main_v1 _ = V m c main_v1 _
  congr 1
  funext a
  apply Fin.ext
  match a with
  | ⟨0, _⟩ => show win0_2.index t (0 : Fin 2) * 128 + 1 * r.val = 128 * t.val + r.val; rw [hi.1]; omega
  | ⟨1, _⟩ => show win0_2.index t (1 : Fin 2) * 16392 + 1 * col.val = col.val; rw [hi.2]; omega

/-- The table's block is the whole table at every point. -/
theorem tblk_read (c : Dev nD) (t : Fin cfg0.N) (col : Fin 16392) :
    tblk m c t (ix2 (0 : Fin 1) col) = (V m c main_v10 : IVec S1x16392 32) (ix2 (0 : Fin 1) col) := by
  have hi := idx_tbl t
  have h0 : win0_0.index t (0 : Fin 2) = 0 := hi.1
  have h1 : win0_0.index t (1 : Fin 2) = 0 := hi.2
  show iblk m c 0 t (ix2 (0 : Fin 1) col) = _
  unfold iblk
  rw [View.read_apply]
  show V m c main_v10 _ = V m c main_v10 _
  congr 1
  funext a
  apply Fin.ext
  match a with
  | ⟨0, _⟩ => show win0_0.index t (0 : Fin 2) * 1 + 1 * 0 = 0; omega
  | ⟨1, _⟩ => show win0_0.index t (1 : Fin 2) * 16392 + 1 * col.val = col.val; omega

/-- THE PREDICTIONS' BLOCK at (r, col): the predictions at sample `128 t + r`, slot `col / 8`, feature `col % 8`. -/
theorem pblk_apply (c : Dev nD) (t : Fin cfg0.N) (r : Fin 128) (col : Fin 16392) :
    pblk m c t (ix2 r col) = P m c (ix3 (rowOf t r) (actOf col) (featOf col)) :=
  (pblk_read m c t r col).trans ((congrFun (V_main_v0 m c) (ix2 (rowOf t r) col)).trans
    (reshape_apply (P m c) (rowOf t r) col))

/-- THE TARGETS' BLOCK at (r, col): the targets at sample `128 t + r`, slot `col / 8`, feature `col % 8`. -/
theorem qblk_apply (c : Dev nD) (t : Fin cfg0.N) (r : Fin 128) (col : Fin 16392) :
    qblk m c t (ix2 r col) = T m c (ix3 (rowOf t r) (actOf col) (featOf col)) :=
  (qblk_read m c t r col).trans ((congrFun (V_main_v1 m c) (ix2 (rowOf t r) col)).trans
    (reshape_apply (T m c) (rowOf t r) col))

/-- THE TABLE'S BLOCK at (0, col): the column's label. -/
theorem tblk_apply (c : Dev nD) (t : Fin cfg0.N) (col : Fin 16392) :
    tblk m c t (ix2 (0 : Fin 1) col) = Cert.Spec.tblVal col :=
  (tblk_read m c t col).trans (table_eq m c col)

end Cert.KernelIdeal.KVal

end
-- ==== Proof.KScalars35.lean ====
/-
  The kernel's first and third per-point scalars, as sums over the point's 128 samples.

  At grid point t the body computes, from its blocks of the flattened inputs,

    first scalar  =  Σ_r (pblk[r, 0] − qblk[r, 0])²                       (column 0 is entry (·, 0, 0) of the inputs)
    third scalar  =  Σ_r [ trunc(qblk[r, 0]) > 0 ]                        (the bit widened and converted: 1 or 0)

  each as: column 0 sliced out, viewed as one row of 128 lanes, summed along the lanes from the zero word (the
  sum's neutral), and the one entry extracted.  Read at the blocks' entries these are the count term's squared
  differences and the indicator of a positive truncated count, over samples 128 t … 128 t + 127.
-/
import proofs.«413703_j42777874268646_4_alg».proof.Proof.KBlocks
import Idealize.ShloMosaic.PureOps.Ideal.Laws

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## Layout steps shared by the payloads -/

/-- Column 0 of a (128, 16392) block, viewed as a vector of 128: entry `r` is the block at (r, 0). -/
theorem col0_apply {α : Type} (v : S128x16392.Idx → α) (r : Fin 128) :
    shapeCast S128 (extractStridedSlice S128x1 ![0, 0] v slices_S128x16392_o0_0_S128x1) shapeCasts_S128x1_S128 (ix1 r)
      = v (ix2 r (0 : Fin 16392)) := by
  refine (shapeCast_apply _ shapeCasts_S128x1_S128 (ix1 r) (ix2 r (0 : Fin 1)) ?_).trans ?_
  · rw [Shape.rowMajor_val_two, Shape.rowMajor_val_one]
    show r.val * 1 + 0 = r.val
    omega
  · refine extractStridedSlice_apply ![0, 0] v slices_S128x16392_o0_0_S128x1 (ix2 r (0 : Fin 1)) (ix2 r (0 : Fin 16392)) fun a => ?_
    match a with
    | ⟨0, _⟩ => show r.val = 0 + r.val; omega
    | ⟨1, _⟩ => show (0 : Nat) = 0 + 0; rfl

/-- A vector of 128 laid as one row, summed along the lanes, and the one entry read: the sum of its entries. -/
theorem rowsum_apply (v : FVec Ideal S128 .f32) :
    extractAt ![0, 0] (shapeCast S1x1 (multiReduction (F := Ideal) .add [1] S1 (shapeCast S1x128 v shapeCasts_S128_S1x128)
        0x00000000#32 reduces_S1x128_S1 (.inl rfl) rfl) shapeCasts_S1_S1x1) inpos_S1x1_p0_0
      = ∑ r : Fin 128, v (ix1 r) := by
  unfold extractAt
  refine (shapeCast_apply _ shapeCasts_S1_S1x1 _ (ix1 (0 : Fin 1)) ?_).trans ?_
  · rw [Shape.rowMajor_val_one, Shape.rowMajor_val_two]
    rfl
  refine (Ideal.multiReduction_add_single (φ := .f32) _ _ reduces_S1x128_S1 _ _ (ix1 (0 : Fin 1))).trans ?_
  show ∑ k : Fin 128, shapeCast S1x128 v shapeCasts_S128_S1x128 (reduces_S1x128_S1.lift (ix1 (0 : Fin 1)) k) = _
  refine Finset.sum_congr rfl fun k _ => ?_
  refine shapeCast_apply v shapeCasts_S128_S1x128 _ (ix1 k) ?_
  rw [Shape.rowMajor_val_one, Shape.rowMajor_val_two]
  show k.val = 0 * 128 + k.val
  omega

/-! ## The count term's scalar: the squared differences of column 0, summed over the block's rows -/

/-- The squared difference at an entry. -/
theorem pay9_apply (x1 x2 : Vec Ideal S128x16392 .f32) (i : S128x16392.Idx) :
    k0_pay9 (F := Ideal) x1 x2 i = (x1 i - x2 i) * (x1 i - x2 i) := by
  have e1 : shapeCast S128x16392 x1 shapeCasts_S128x16392_S128x16392 = x1 := shapeCast_self _ _
  have e2 : shapeCast S128x16392 x2 shapeCasts_S128x16392_S128x16392 = x2 := shapeCast_self _ _
  show (shapeCast S128x16392 x1 shapeCasts_S128x16392_S128x16392 i - shapeCast S128x16392 x2 shapeCasts_S128x16392_S128x16392 i)
      * (shapeCast S128x16392 x1 shapeCasts_S128x16392_S128x16392 i - shapeCast S128x16392 x2 shapeCasts_S128x16392_S128x16392 i) = _
  rw [e1, e2]

/-- The first scalar over any two blocks. -/
theorem pay12_eq (x1 x2 : Vec Ideal S128x16392 .f32) :
    k0_pay12 (F := Ideal) x1 x2
      = ∑ r : Fin 128, (x1 (ix2 r (0 : Fin 16392)) - x2 (ix2 r (0 : Fin 16392))) * (x1 (ix2 r (0 : Fin 16392)) - x2 (ix2 r (0 : Fin 16392))) := by
  unfold k0_pay12
  dsimp only
  refine (rowsum_apply _).trans ?_
  refine Finset.sum_congr rfl fun r _ => ?_
  refine (col0_apply (k0_pay9 (F := Ideal) x1 x2) r).trans ?_
  exact pay9_apply x1 x2 (ix2 r (0 : Fin 16392))

/-! ## The valid count's scalar: the rows whose truncated count is positive -/

/-- The truncated count of row `r`. -/
theorem pay10_apply (x2 : Vec Ideal S128x16392 .f32) (r : Fin 128) :
    k0_pay10 (F := Ideal) x2 (ix1 r) = Ideal.fptosi 32 (x2 (ix2 r (0 : Fin 16392))) := by
  have e2 : shapeCast S128x16392 x2 shapeCasts_S128x16392_S128x16392 = x2 := shapeCast_self _ _
  show Ideal.fptosi 32 (shapeCast S128 (extractStridedSlice S128x1 ![0, 0]
    (shapeCast S128x16392 x2 shapeCasts_S128x16392_S128x16392) slices_S128x16392_o0_0_S128x1) shapeCasts_S128x1_S128 (ix1 r)) = _
  rw [e2]
  exact congrArg (Ideal.fptosi 32) (col0_apply x2 r)

/-- Its comparison with zero, as a one-bit word. -/
theorem pay11_apply (x2 : Vec Ideal S128x16392 .f32) (r : Fin 128) :
    k0_pay11 (F := Ideal) x2 (ix1 r) = BitVec.ofBool ((0#32).slt (Ideal.fptosi 32 (x2 (ix2 r (0 : Fin 16392))))) := by
  have e := pay10_apply x2 r
  show BitVec.ofBool ((0#32).slt (k0_pay10 (F := Ideal) x2 (ix1 r))) = _
  rw [e]

/-- The bit of `0 < y`, widened and converted: one or zero. -/
theorem ind_eq (y : BitVec 32) :
    ((((BitVec.ofBool ((0#32).slt y)).setWidth 32).toInt : ℝ) : EReal) = if 0 < y.toInt then (1 : EReal) else 0 := by
  rw [BitVec.slt_eq_decide, BitVec.toInt_zero]
  by_cases h : 0 < y.toInt
  · rw [decide_eq_true h, if_pos h]
    have e : ((BitVec.ofBool true).setWidth 32).toInt = 1 := by decide
    rw [e, Int.cast_one, EReal.coe_one]
  · rw [decide_eq_false h, if_neg h]
    have e : ((BitVec.ofBool false).setWidth 32).toInt = 0 := by decide
    rw [e, Int.cast_zero, EReal.coe_zero]

/-- The third scalar over any block. -/
theorem pay14_eq (x2 : Vec Ideal S128x16392 .f32) :
    extractAt ![0, 0] (k0_pay14 (F := Ideal) x2) inpos_S1x1_p0_0
      = ∑ r : Fin 128, if 0 < (Ideal.fptosi 32 (x2 (ix2 r (0 : Fin 16392)))).toInt then (1 : EReal) else 0 := by
  unfold k0_pay14
  dsimp only
  refine (rowsum_apply _).trans ?_
  refine Finset.sum_congr rfl fun r _ => ?_
  show ((((k0_pay11 (F := Ideal) x2 (ix1 r)).setWidth 32).toInt : ℝ) : EReal) = _
  rw [pay11_apply x2 r]
  exact ind_eq _

/-! ## At the kernel's blocks -/

/-- THE FIRST SCALAR at point `t`: the count term's squared differences over the block's 128 samples. -/
theorem sc3_eq (c : Dev nD) (t : Fin cfg0.N) :
    sc3 m c t = ∑ r : Fin 128, Cert.Spec.sqd (P m c) (T m c) (rowOf t r) 0 0 := by
  unfold sc3
  refine (pay12_eq (pblk m c t) (qblk m c t)).trans ?_
  refine Finset.sum_congr rfl fun r _ => ?_
  have hp := pblk_apply m c t r 0
  have hq := qblk_apply m c t r 0
  show (pblk m c t (ix2 r (0 : Fin 16392)) - qblk m c t (ix2 r (0 : Fin 16392)))
      * (pblk m c t (ix2 r (0 : Fin 16392)) - qblk m c t (ix2 r (0 : Fin 16392))) = _
  rw [hp, hq]
  rfl

/-- THE THIRD SCALAR at point `t`: the number of the block's samples with a positive truncated count. -/
theorem sc5_eq (c : Dev nD) (t : Fin cfg0.N) :
    sc5 m c t = ∑ r : Fin 128, if 0 < (Cert.Spec.cnt (T m c) (rowOf t r)).toInt then (1 : EReal) else 0 := by
  unfold sc5
  refine (pay14_eq (qblk m c t)).trans ?_
  refine Finset.sum_congr rfl fun r _ => ?_
  have hq := qblk_apply m c t r 0
  show (if 0 < (Ideal.fptosi 32 (qblk m c t (ix2 r (0 : Fin 16392)))).toInt then (1 : EReal) else 0) = _
  rw [hq]
  rfl

end Cert.KernelIdeal.KVal

end
-- ==== Proof.KScalar4.lean ====
/-
  The action scalar of one grid point, read at the ideal instance.

  At grid point t the kernel holds a block p of the predictions and a block q of the targets, rows 128 t … 128 t + 127 of
  the two (4096, 16392) arrays, and the table tbl of the columns' action indices (2049 on the eight header columns,
  (col − 8) / 8 after them). With n_r the entry q[r, 0] truncated to a 32-bit integer, the scalar it adds to its action
  accumulator is

    Σ_{r < 128} [n_r > 0] · (Σ_{col < 16392} [tbl[col] < n_r] · (p[r, col] − q[r, col])²) / (n_r · 8.0).

  First the payload is read over ANY two blocks and any table (the layout operations at explicit coordinates, the two
  lane sums as sums over the coordinates, the two signed comparisons as conditions on the integers). Then, for the
  table that is there and counts at most 2048, the masked sum over the 16392 columns is the double sum over the 2048
  action slots and the 8 features (column 8 + 8 a + f is slot a + 1, feature f), the constant 8.0 is the real 8, and
  row r of block t is sample 128 t + r: the scalar is the sum of the block's 128 samples' mean squared errors.
-/
import proofs.«413703_j42777874268646_4_alg».proof.Proof.KPieces
import proofs.«413703_j42777874268646_4_alg».proof.Proof.KBlocks
import proofs.«413703_j42777874268646_4_alg».proof.Proof.SpecLemmas
import Idealize.ShloMosaic.PureOps.Ideal.Laws
import Idealize.ShloMosaic.Lib.ValueIdx
import Idealize.ShloMosaic.Lib.Pipeline.Value

noncomputable section

namespace Cert.KernelIdeal.KVal

open Idealize.ShloMosaic Idealize.ShloMosaic.TcCoe Idealize.SL.Sem Idealize.ShloMosaic.ValueIdx
open scoped BigOperators

variable (m : (ℓ : Loc nD τ sig) → Buf (Elt Ideal) ℓ)

namespace S4

/-! ## Words: a select on a signed comparison is the conditional on the integers -/

/-- A select on a decided proposition's bit is the conditional on the proposition. -/
theorem select_ofBool {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

/-- A select on the signed comparison x < y is the conditional on x.toInt < y.toInt. -/
theorem select_slt {α : Type} (x y : BitVec 32) (a b : α) :
    Scalar.select (IntOp.cmpi .slt x y) a b = if x.toInt < y.toInt then a else b :=
  select_ofBool (x.toInt < y.toInt) a b

/-- A select on the signed comparison x > 0 is the conditional on 0 < x.toInt. -/
theorem select_sgt_zero {α : Type} (x : BitVec 32) (a b : α) :
    Scalar.select (IntOp.cmpi .sgt x 0#32) a b = if 0 < x.toInt then a else b := by
  refine (select_ofBool ((0#32 : BitVec 32).toInt < x.toInt) a b).trans ?_
  rw [BitVec.toInt_zero]

/-! ## The constant 8.0 and the denominator -/

/-- The word 0x41000000 denotes the real 8. -/
theorem ofBits_eight : Ideal.ofBits .f32 0x41000000#32 = ((8 : ℝ) : EReal) := by
  first
    | (simp [Ideal.ofBits, Ideal.ieee, -EReal.coe_mul]; norm_num)
    | simp [Ideal.ofBits, Ideal.ieee, -EReal.coe_mul]

/-- An integer z times 8.0 is the integer 8 z, as extended reals. -/
theorem den_eq (z : ℤ) : ((z : ℝ) : EReal) * Ideal.ofBits .f32 0x41000000#32 = (((z * 8 : ℤ) : ℝ) : EReal) := by
  have e : ((z * 8 : ℤ) : ℝ) = (z : ℝ) * 8 := by
    first
      | (push_cast; ring)
      | push_cast
      | norm_num
  rw [ofBits_eight, e, EReal.coe_mul]

/-! ## Layout operations of the payload read at explicit coordinates -/

/-- Column 0 of a (128, 16392) block, cast to a vector of 128: entry r is the block at (r, 0). -/
theorem col0_apply {α : Type} (y : S128x16392.Idx → α) (hs : S128x16392.Slices ![0, 0] S128x1)
    (hc : S128x1.ShapeCasts S128) (r : Fin 128) :
    shapeCast S128 (extractStridedSlice S128x1 ![0, 0] y hs) hc (ix1 r) = y (ix2 r (0 : Fin 16392)) := by
  refine (shapeCast_apply _ hc (ix1 r) (ix2 r (0 : Fin 1)) ?_).trans ?_
  · rw [Shape.rowMajor_val_one, Shape.rowMajor_val_two] <;> (show r.val * 1 + 0 = r.val; omega)
  · exact extractStridedSlice_apply ![0, 0] y hs (ix2 r (0 : Fin 1)) (ix2 r (0 : Fin 16392)) (fun a =>
      match a with
      | ⟨0, _⟩ => by show r.val = 0 + r.val; omega
      | ⟨1, _⟩ => rfl)

/-- The (1, 16392) table laid along every row: entry (r, col) is the table at (0, col). -/
theorem bcast_row_apply {α : Type} (x0 : S1x16392.Idx → α) (h : S1x16392.ShapeCasts S1x16392)
    (hb : S1x16392.Broadcasts S128x16392) (r : Fin 128) (col : Fin 16392) :
    broadcastTo S128x16392 (shapeCast S1x16392 x0 h) hb (ix2 r col) = x0 (ix2 (0 : Fin 1) col) := by
  rw [shapeCast_self]
  exact broadcastTo_apply x0 hb (ix2 r col) (ix2 (0 : Fin 1) col) (fun a =>
    match a with
    | ⟨0, _⟩ => rfl
    | ⟨1, _⟩ => rfl)

/-- A vector of 128 laid along every column: entry (r, col) is the vector at r. -/
theorem bcast_col_apply {α : Type} (n : S128.Idx → α) (h : S128.ShapeCasts S128x1)
    (hb : S128x1.Broadcasts S128x16392) (r : Fin 128) (col : Fin 16392) :
    broadcastTo S128x16392 (shapeCast S128x1 n h) hb (ix2 r col) = n (ix1 r) := by
  refine (broadcastTo_apply _ hb (ix2 r col) (ix2 r (0 : Fin 1)) (fun a =>
    match a with
    | ⟨0, _⟩ => rfl
    | ⟨1, _⟩ => rfl)).trans ?_
  refine shapeCast_apply n h (ix2 r (0 : Fin 1)) (ix1 r) ?_
  rw [Shape.rowMajor_val_one, Shape.rowMajor_val_two] <;> (show r.val = r.val * 1 + 0; omega)

/-- The lane sum of a (128, 16392) block over its columns: entry r is the sum of row r. -/
theorem rowsum_apply (w : FVec Ideal S128x16392 .f32) (h : S128x16392.Reduces [1] S128) (hφ : FKind.Formats .f32)
    (hacc : (0x00000000#32 : BitVec 32) = 0x00000000#32) (r : Fin 128) :
    multiReduction (F := Ideal) .add [1] S128 w 0x00000000#32 h hφ hacc (ix1 r) = ∑ col : Fin 16392, w (ix2 r col) := by
  refine (Ideal.multiReduction_add_single w 0x00000000#32 h hφ hacc (ix1 r)).trans ?_
  show ∑ k : Fin 16392, w (h.lift (ix1 r) k) = _
  refine Finset.sum_congr rfl fun col _ => congrArg w ?_
  funext a
  match a with
  | ⟨0, _⟩ => exact Fin.ext rfl
  | ⟨1, _⟩ => exact Fin.ext rfl

/-- The scalar a vector of 128 ends as: cast to (1, 128), summed along the lanes, cast to (1, 1), read at (0, 0):
    the sum of its entries. -/
theorem lanesum_apply (v : FVec Ideal S128 .f32) (h1 : S128.ShapeCasts S1x128) (h2 : S1x128.Reduces [1] S1)
    (hφ : FKind.Formats .f32) (hacc : (0x00000000#32 : BitVec 32) = 0x00000000#32)
    (h3 : S1.ShapeCasts S1x1) (h4 : ∀ a, (![0, 0] : Fin 2 → Nat) a < S1x1.size a) :
    extractAt ![0, 0] (shapeCast S1x1 (multiReduction (F := Ideal) .add [1] S1 (shapeCast S1x128 v h1) 0x00000000#32 h2 hφ hacc) h3) h4
      = ∑ r : Fin 128, v (ix1 r) := by
  unfold extractAt
  refine (shapeCast_apply _ h3 _ (ix1 (0 : Fin 1)) ?_).trans ?_
  · rw [Shape.rowMajor_val_one, Shape.rowMajor_val_two] <;> first | rfl | decide
  refine (Ideal.multiReduction_add_single (shapeCast S1x128 v h1) 0x00000000#32 h2 hφ hacc (ix1 (0 : Fin 1))).trans ?_
  show ∑ k : Fin 128, shapeCast S1x128 v h1 (h2.lift (ix1 (0 : Fin 1)) k) = _
  refine Finset.sum_congr rfl fun r _ => ?_
  refine shapeCast_apply v h1 _ (ix1 r) ?_
  rw [Shape.rowMajor_val_one, Shape.rowMajor_val_two] <;> (show r.val = 0 * 128 + r.val; omega)

/-! ## The payload in named pieces (for every float instance; each restatement is by definitional unfolding) -/

section Pieces
variable {F : FTy → Type} [FloatOps F]

/-- The squared difference of two blocks. -/
def sqVec (a b : FVec F S128x16392 .f32) : FVec F S128x16392 .f32 :=
  have v4 : FVec F S128x16392 .f32 := subf a b
  have v5 : FVec F S128x16392 .f32 := mulf v4 v4
  v5

theorem pay9_unfold (v0 v2 : Vec F S128x16392 .f32) :
    Gen.k0_pay9 v0 v2 = sqVec (shapeCast S128x16392 v0 Gen.shapeCasts_S128x16392_S128x16392)
      (shapeCast S128x16392 v2 Gen.shapeCasts_S128x16392_S128x16392) := rfl

/-- The squared differences kept where the table's entry is below the row's count, zero elsewhere. -/
def maskedSq (v0 v2 : Vec F S128x16392 .f32) (v11 : Vec F S1x16392 .i32) : FVec F S128x16392 .f32 :=
  have v12 : IVec S1x16392 32 := shapeCast S1x16392 v11 Gen.shapeCasts_S1x16392_S1x16392
  have v13 : IVec S128x1 32 := shapeCast S128x1 (Gen.k0_pay10 v2) Gen.shapeCasts_S128_S128x1
  have v14 : IVec S128x16392 32 := broadcastTo S128x16392 v12 Gen.broadcasts_S1x16392_S128x16392
  have v15 : IVec S128x16392 32 := broadcastTo S128x16392 v13 Gen.broadcasts_S128x1_S128x16392
  have v16 : IVec S128x16392 1 := cmpi .slt v14 v15
  have cst : F .f32 := Scalar.ofBits .f32 0x00000000#32
  have v17 : FVec F S128x16392 .f32 := broadcast S128x16392 cst
  have v18 : FVec F S128x16392 .f32 := select v16 (Gen.k0_pay9 v0 v2) v17
  v18

/-- The row sums of the masked squared differences. -/
def rowSumVec (v0 v2 : Vec F S128x16392 .f32) (v11 : Vec F S1x16392 .i32) : FVec F S128 .f32 :=
  multiReduction .add [1] S128 (maskedSq v0 v2 v11) 0x00000000#32 Gen.reduces_S128x16392_S128 (.inl rfl) rfl

/-- From the row sums to the per-row quotients: divided by 8 times the count where the count is positive, zero elsewhere. -/
def rowVecOf (v19 : FVec F S128 .f32) (v2 : Vec F S128x16392 .f32) : FVec F S128 .f32 :=
  have v26 : FVec F S128 .f32 := sitofp .f32 (Gen.k0_pay10 v2)
  have cst_7 : F .f32 := Scalar.ofBits .f32 0x41000000#32
  have v27 : FVec F S128 .f32 := broadcast S128 cst_7
  have v28 : FVec F S128 .f32 := mulf v26 v27
  have cst_8 : F .f32 := Scalar.ofBits .f32 0x3F800000#32
  have v29 : FVec F S128 .f32 := broadcast S128 cst_8
  have v30 : FVec F S128 .f32 := select (Gen.k0_pay11 v2) v28 v29
  have v31 : FVec F S128 .f32 := divf v19 v30
  have cst_9 : F .f32 := Scalar.ofBits .f32 0x00000000#32
  have v32 : FVec F S128 .f32 := broadcast S128 cst_9
  have v33 : FVec F S128 .f32 := select (Gen.k0_pay11 v2) v31 v32
  v33

/-- The scalar a vector of 128 ends as. -/
def laneSum (v33 : FVec F S128 .f32) : F .f32 :=
  have v34 : FVec F S1x128 .f32 := shapeCast S1x128 v33 Gen.shapeCasts_S128_S1x128
  have v35 : FVec F S1 .f32 := multiReduction .add [1] S1 v34 0x00000000#32 Gen.reduces_S1x128_S1 (.inl rfl) rfl
  have v36 : FVec F S1x1 .f32 := shapeCast S1x1 v35 Gen.shapeCasts_S1_S1x1
  have v37 : F .f32 := extractAt ![0, 0] v36 Gen.inpos_S1x1_p0_0
  v37

set_option maxRecDepth 65536 in
/-- The action payload is the lane sum of the per-row quotients of the row sums. -/
theorem pay13_unfold (v0 v2 : Vec F S128x16392 .f32) (v11 : Vec F S1x16392 .i32) :
    Gen.k0_pay13 v0 v2 v11 = laneSum (rowVecOf (rowSumVec v0 v2 v11) v2) := rfl

end Pieces

/-! ## The pieces read at explicit coordinates, at the ideal instance -/

/-- An entry of a block, as an extended real. -/
abbrev ent (x : Vec Ideal S128x16392 .f32) (r : Fin 128) (col : Fin 16392) : EReal := x (ix2 r col)

/-- Row r's count: entry (r, 0) of the second block, truncated to a 32-bit integer. -/
def nrow (x2 : Vec Ideal S128x16392 .f32) (r : Fin 128) : BitVec 32 := Ideal.fptosi 32 (ent x2 r (0 : Fin 16392))

/-- The squared difference of the two blocks at one entry. -/
def sq (x1 x2 : Vec Ideal S128x16392 .f32) (r : Fin 128) (col : Fin 16392) : EReal :=
  (ent x1 r col - ent x2 r col) * (ent x1 r col - ent x2 r col)

/-- Row r's term for a count n: for a positive count the masked row sum over 8 n, else zero. -/
def rowTerm (tv : Fin 16392 → BitVec 32) (x1 x2 : Vec Ideal S128x16392 .f32) (r : Fin 128) (n : BitVec 32) : EReal :=
  if 0 < BitVec.toInt n then
    Ideal.div (∑ col : Fin 16392, if BitVec.toInt (tv col) < BitVec.toInt n then sq x1 x2 r col else 0)
      (((BitVec.toInt n : ℝ) : EReal) * Ideal.ofBits .f32 0x41000000#32)
  else 0

theorem pay10_apply (x2 : Vec Ideal S128x16392 .f32) (r : Fin 128) :
    Gen.k0_pay10 (F := Ideal) x2 (ix1 r) = nrow x2 r := by
  show Ideal.fptosi 32 (shapeCast S128 (extractStridedSlice S128x1 ![0, 0]
      (shapeCast S128x16392 x2 Gen.shapeCasts_S128x16392_S128x16392) Gen.slices_S128x16392_o0_0_S128x1)
      Gen.shapeCasts_S128x1_S128 (ix1 r)) = Ideal.fptosi 32 (x2 (ix2 r (0 : Fin 16392)))
  rw [shapeCast_self]
  exact congrArg (Ideal.fptosi 32) (col0_apply x2 _ _ r)

theorem pay9_apply (x1 x2 : Vec Ideal S128x16392 .f32) (r : Fin 128) (col : Fin 16392) :
    Gen.k0_pay9 (F := Ideal) x1 x2 (ix2 r col) = sq x1 x2 r col := by
  rw [pay9_unfold, shapeCast_self, shapeCast_self]
  rfl

theorem maskedSq_apply (x1 x2 : Vec Ideal S128x16392 .f32) (x0 : Vec Ideal S1x16392 .i32) (r : Fin 128) (col : Fin 16392) :
    maskedSq (F := Ideal) x1 x2 x0 (ix2 r col)
      = if BitVec.toInt (x0 (ix2 (0 : Fin 1) col)) < BitVec.toInt (nrow x2 r) then sq x1 x2 r col else 0 := by
  show Scalar.select (IntOp.cmpi .slt
        (broadcastTo S128x16392 (shapeCast S1x16392 x0 Gen.shapeCasts_S1x16392_S1x16392) Gen.broadcasts_S1x16392_S128x16392 (ix2 r col))
        (broadcastTo S128x16392 (shapeCast S128x1 (Gen.k0_pay10 (F := Ideal) x2) Gen.shapeCasts_S128_S128x1) Gen.broadcasts_S128x1_S128x16392 (ix2 r col)))
      (Gen.k0_pay9 (F := Ideal) x1 x2 (ix2 r col)) (Ideal.ofBits .f32 0x00000000#32) = _
  rw [bcast_row_apply, bcast_col_apply, pay10_apply, pay9_apply, Ideal.ofBits_zero_f32]
  exact select_slt _ _ _ _

theorem rowSumVec_apply (x1 x2 : Vec Ideal S128x16392 .f32) (x0 : Vec Ideal S1x16392 .i32) (r : Fin 128) :
    rowSumVec (F := Ideal) x1 x2 x0 (ix1 r) = ∑ col : Fin 16392, maskedSq (F := Ideal) x1 x2 x0 (ix2 r col) :=
  rowsum_apply (maskedSq (F := Ideal) x1 x2 x0) Gen.reduces_S128x16392_S128 (.inl rfl) rfl r

theorem rowVecOf_apply (s : FVec Ideal S128 .f32) (x2 : Vec Ideal S128x16392 .f32) (r : Fin 128) :
    rowVecOf (F := Ideal) s x2 (ix1 r)
      = if 0 < BitVec.toInt (nrow x2 r) then
          Ideal.div (s (ix1 r)) (((BitVec.toInt (nrow x2 r) : ℝ) : EReal) * Ideal.ofBits .f32 0x41000000#32)
        else 0 := by
  show Scalar.select (IntOp.cmpi .sgt (Gen.k0_pay10 (F := Ideal) x2 (ix1 r)) 0#32)
      (Ideal.div (s (ix1 r))
        (Scalar.select (IntOp.cmpi .sgt (Gen.k0_pay10 (F := Ideal) x2 (ix1 r)) 0#32)
          (((BitVec.toInt (Gen.k0_pay10 (F := Ideal) x2 (ix1 r)) : ℝ) : EReal) * Ideal.ofBits .f32 0x41000000#32)
          (Ideal.ofBits .f32 0x3F800000#32)))
      (Ideal.ofBits .f32 0x00000000#32) = _
  rw [pay10_apply, Ideal.ofBits_zero_f32, select_sgt_zero, select_sgt_zero]
  by_cases hpos : 0 < BitVec.toInt (nrow x2 r)
  · first
      | simp only [if_pos hpos]
      | simp [hpos]
  · first
      | simp only [if_neg hpos]
      | simp [hpos]

theorem laneSum_apply (v : FVec Ideal S128 .f32) : laneSum (F := Ideal) v = ∑ r : Fin 128, v (ix1 r) :=
  lanesum_apply v Gen.shapeCasts_S128_S1x128 Gen.reduces_S1x128_S1 (.inl rfl) rfl Gen.shapeCasts_S1_S1x1 Gen.inpos_S1x1_p0_0

/-- THE ACTION PAYLOAD over any two blocks and any table: the sum over the 128 rows of the row's term at the row's count. -/
theorem pay13_eq (x1 x2 : Vec Ideal S128x16392 .f32) (x0 : Vec Ideal S1x16392 .i32) (tv : Fin 16392 → BitVec 32)
    (h0 : ∀ col : Fin 16392, x0 (ix2 (0 : Fin 1) col) = tv col) :
    Gen.k0_pay13 (F := Ideal) x1 x2 x0 = ∑ r : Fin 128, rowTerm tv x1 x2 r (nrow x2 r) := by
  refine (pay13_unfold (F := Ideal) x1 x2 x0).trans ((laneSum_apply _).trans (Finset.sum_congr rfl fun r _ => ?_))
  refine (rowVecOf_apply _ x2 r).trans ?_
  unfold rowTerm
  refine if_congr Iff.rfl (congrArg₂ Ideal.div ?_ rfl) rfl
  refine (rowSumVec_apply x1 x2 x0 r).trans (Finset.sum_congr rfl fun col _ => ?_)
  exact (maskedSq_apply x1 x2 x0 r col).trans (by rw [h0 col])

/-! ## From the blocks to the arrays -/

theorem tval_lt (t : Fin cfg0.N) : t.val < 32 := lt_of_lt_of_eq t.isLt Gen.N_0

theorem row_lt (t : Fin cfg0.N) (r : Fin 128) : 128 * t.val + r.val < 4096 := by
  have h1 := tval_lt t
  have h2 := r.isLt
  omega

/-- Two rank-3 indices with equal coordinates are equal. -/
theorem ix3_congr {n0 n1 n2 : Nat} {a a' : Fin n0} {b b' : Fin n1} {c c' : Fin n2}
    (ha : a.val = a'.val) (hb : b.val = b'.val) (hc : c.val = c'.val) : ix3 a b c = ix3 a' b' c' := by
  obtain rfl := Fin.ext ha
  obtain rfl := Fin.ext hb
  obtain rfl := Fin.ext hc
  rfl

/-- The sample that row r of the block of point t is. -/
abbrev brow (t : Fin cfg0.N) (r : Fin 128) : Fin 4096 := ⟨128 * t.val + r.val, row_lt t r⟩

/-- Column 8 + 8 a + f of a block row is action slot a + 1, feature f. -/
theorem col_lt (a : Fin 2048) (f : Fin 8) : 8 + 8 * a.val + f.val < 16392 := by
  have h1 := a.isLt
  have h2 := f.isLt
  omega

theorem slot_div (a f : Nat) (hf : f < 8) : (8 + 8 * a + f) / 8 = a + 1 := by omega

theorem slot_mod (a f : Nat) (hf : f < 8) : (8 + 8 * a + f) % 8 = f := by omega

theorem p_at (c : Dev nD) (t : Fin cfg0.N) (r : Fin 128) (a : Fin 2048) (f : Fin 8) :
    ent (pblk m c t) r ⟨8 + 8 * a.val + f.val, col_lt a f⟩ = P m c (ix3 (brow t r) a.succ f) :=
  (pblk_apply m c t r ⟨8 + 8 * a.val + f.val, col_lt a f⟩).trans (congrArg (P m c) (ix3_congr rfl
    ((slot_div a.val f.val f.isLt).trans (Fin.val_succ a).symm) (slot_mod a.val f.val f.isLt)))

theorem q_at (c : Dev nD) (t : Fin cfg0.N) (r : Fin 128) (a : Fin 2048) (f : Fin 8) :
    ent (qblk m c t) r ⟨8 + 8 * a.val + f.val, col_lt a f⟩ = T m c (ix3 (brow t r) a.succ f) :=
  (qblk_apply m c t r ⟨8 + 8 * a.val + f.val, col_lt a f⟩).trans (congrArg (T m c) (ix3_congr rfl
    ((slot_div a.val f.val f.isLt).trans (Fin.val_succ a).symm) (slot_mod a.val f.val f.isLt)))

/-- A block row's count is its sample's count. -/
theorem nrow_eq (c : Dev nD) (t : Fin cfg0.N) (r : Fin 128) :
    nrow (qblk m c t) r = Cert.Spec.cnt (T m c) (brow t r) :=
  show Ideal.fptosi 32 (ent (qblk m c t) r (0 : Fin 16392)) = Ideal.fptosi 32 (T m c (ix3 (brow t r) 0 0)) from
    congrArg (Ideal.fptosi 32) ((qblk_apply m c t r (0 : Fin 16392)).trans (congrArg (T m c)
      (ix3_congr rfl (by first | rfl | decide) (by first | rfl | decide))))

theorem sq_at (c : Dev nD) (t : Fin cfg0.N) (r : Fin 128) (a : Fin 2048) (f : Fin 8) :
    sq (pblk m c t) (qblk m c t) r ⟨8 + 8 * a.val + f.val, col_lt a f⟩
      = Cert.Spec.sqd (P m c) (T m c) (brow t r) a.succ f := by
  unfold sq Cert.Spec.sqd
  rw [p_at m c t r a f, q_at m c t r a f]

/-- At the sample's count, a block row's term is the sample's mean squared error. -/
theorem rowTerm_eq_mse (c : Dev nD) (hb : ∀ b, (Cert.Spec.cnt (T m c) b).toInt ≤ 2048) (t : Fin cfg0.N) (r : Fin 128) :
    rowTerm Cert.Spec.tblVal (pblk m c t) (qblk m c t) r (Cert.Spec.cnt (T m c) (brow t r))
      = Cert.Spec.mse (P m c) (T m c) (brow t r) := by
  unfold rowTerm Cert.Spec.mse
  refine if_congr Iff.rfl (congrArg₂ Ideal.div ?_ (den_eq _)) rfl
  unfold Cert.Spec.rowSum
  refine (Cert.Spec.row_split (fun col => sq (pblk m c t) (qblk m c t) r col) _ (hb (brow t r))).trans ?_
  refine Finset.sum_congr rfl fun a _ => Finset.sum_congr rfl fun f _ => ?_
  exact if_congr Iff.rfl (sq_at m c t r a f) rfl

/-- THE ACTION SCALAR of grid point t: the sum, over the 128 samples of its block, of the sample's mean squared error. -/
theorem sc4_eq (c : Dev nD) (hb : ∀ b, (Cert.Spec.cnt (T m c) b).toInt ≤ 2048) (t : Fin cfg0.N) :
    sc4 m c t = ∑ r : Fin 128, Cert.Spec.mse (P m c) (T m c) ⟨128 * t.val + r.val, row_lt t r⟩ := by
  show Gen.k0_pay13 (F := Ideal) (pblk m c t) (qblk m c t) (tblk m c t) = _
  refine (pay13_eq (pblk m c t) (qblk m c t) (tblk m c t) Cert.Spec.tblVal (tblk_apply m c t)).trans ?_
  refine Finset.sum_congr rfl fun r _ => ?_
  exact (congrArg (rowTerm Cert.Spec.tblVal (pblk m c t) (qblk m c t) r) (nrow_eq m c t r)).trans
    (rowTerm_eq_mse m c hb t r)

end S4

/-- THE ACTION SCALAR of grid point t: the sum, over the 128 samples of its block, of the sample's mean squared error
    (for a device whose counts are at most 2048). -/
theorem sc4_eq (c : Dev nD) (hb : ∀ b, (Cert.Spec.cnt (T m c) b).toInt ≤ 2048) (t : Fin cfg0.N) :
    sc4 m c t = ∑ r : Fin 128, Cert.Spec.mse (P m c) (T m c) ⟨128 * t.val + r.val, S4.row_lt t r⟩ :=
  S4.sc4_eq m c hb t

end Cert.KernelIdeal.KVal

end
-- ==== Proof.KSums.lean ====
/-
  The three output arrays of the call, summed.  Each (16,128) array is zero except at entries (8c, 0), c = 0, 1,
  where it holds the sum over the sixteen grid points 16c … 16c+15 of that point's scalar; a point's scalar is a
  sum over its 128 rows; and 128·(16c + i) + r runs over all 4096 samples exactly once.  So the arrays sum to
  the count term, the action term and the number of valid samples.
-/
import proofs.«413703_j42777874268646_4_alg».proof.Proof.KFinal
import proofs.«413703_j42777874268646_4_alg».proof.Proof.KArr
import proofs.«413703_j42777874268646_4_alg».proof.Proof.KScalars35
import proofs.«413703_j42777874268646_4_alg».proof.Proof.KScalar4
import proofs.«413703_j42777874268646_4_alg».proof.Proof.SpecLemmas

noncomputable section

namespace Cert.KernelIdeal.KVal

open Cert.KernelIdeal Cert.KernelIdeal.Gen Idealize.ShloMosaic Idealize.ShloMosaic.TcCoe Idealize.SL.Sem

variable (m : (ℓ : Loc nD τ sig) → Buf (Elt Ideal) ℓ)

/-- Grid point `16c + i`. -/
abbrev pt (c' : Fin 2) (i : Fin 16) : Fin cfg0.N := ⟨16 * c'.val + i.val, by have hc : c'.val < 2 := c'.isLt; have hi : i.val < 16 := i.isLt; rw [show cfg0.N = 32 from N_0]; omega⟩

/-- A (16,128) array that is zero off the two slots (8c, 0) and holds there the sum over the core's sixteen
    points of a per-point scalar that is itself a sum over the point's 128 rows of a per-sample term: its total
    is the sum of the per-sample term over all 4096 samples. -/
theorem sum_of_slots (arr : S16x128.Idx → EReal) (sc : Fin cfg0.N → EReal) (g : Fin 4096 → EReal)
    (harr : ∀ j : S16x128.Idx, arr j = if (j 0).val % 8 = 0 ∧ (j 1).val = 0
      then ∑ i : Fin 16, sc ⟨16 * ((j 0).val / 8) + i.val, by have hj : (j 0).val < 16 := (j 0).isLt; have hi : i.val < 16 := i.isLt; rw [show cfg0.N = 32 from N_0]; omega⟩ else 0)
    (hsc : ∀ t : Fin cfg0.N, sc t = ∑ r : Fin 128, g ⟨128 * t.val + r.val, by have ht : t.val < 32 := lt_of_lt_of_eq t.isLt (show cfg0.N = 32 from N_0); have hr : r.val < 128 := r.isLt; omega⟩) :
    (∑ j : S16x128.Idx, arr j) = ∑ b : Fin 4096, g b := by
  have e : ∀ j : S16x128.Idx, arr j = if (j 0).val % 8 = 0 ∧ (j 1).val = 0
      then (fun c' : Fin 2 => ∑ i : Fin 16, sc (pt c' i)) ⟨(j 0).val / 8, by have hj : (j 0).val < 16 := (j 0).isLt; omega⟩ else 0 :=
    fun j => harr j
  refine (Finset.sum_congr rfl fun j _ => e j).trans ?_
  refine (Cert.Spec.sum_slot (fun c' : Fin 2 => ∑ i : Fin 16, sc (pt c' i))).trans ?_
  rw [← Cert.Spec.grid_sum g, Fin.sum_univ_two]
  show (∑ i : Fin 16, sc (pt 0 i)) + (∑ i : Fin 16, sc (pt 1 i)) = _
  exact congrArg₂ (· + ·) (Finset.sum_congr rfl fun i _ => hsc (pt 0 i)) (Finset.sum_congr rfl fun i _ => hsc (pt 1 i))

theorem sum_arr3 (c : Dev nD) :
    (∑ j : S16x128.Idx, arr3 m c j) = Cert.Spec.sCount (P m c) (T m c) :=
  sum_of_slots (arr3 m c) (sc3 m c) (fun b => Cert.Spec.sqd (P m c) (T m c) b 0 0) (final3 m c) (sc3_eq m c)

theorem sum_arr4 (c : Dev nD) (hb : ∀ b, (Cert.Spec.cnt (T m c) b).toInt ≤ 2048) :
    (∑ j : S16x128.Idx, arr4 m c j) = Cert.Spec.sAction (P m c) (T m c) :=
  sum_of_slots (arr4 m c) (sc4 m c) (fun b => Cert.Spec.mse (P m c) (T m c) b) (final4 m c) (sc4_eq m c hb)

theorem sum_arr5 (c : Dev nD) :
    (∑ j : S16x128.Idx, arr5 m c j) = Cert.Spec.nValid (T m c) :=
  sum_of_slots (arr5 m c) (sc5 m c) (fun b => if 0 < (Cert.Spec.cnt (T m c) b).toInt then (1 : EReal) else 0) (final5 m c) (sc5_eq m c)

end Cert.KernelIdeal.KVal

end
-- ==== Proof.RefVal.lean ====
/-
  The value of the reference program at the ideal instance (floats are extended reals, every operation exact),
  read off its generated stages one operation at a time.

  The reference slices the header entry (b, 0, 0) and the action slots (b, a + 1, f) out of both inputs.
  With n_b the target's header entry truncated to a 32-bit integer:

    * its first sum is Σ_b (P[b,0,0] − T[b,0,0])², the count term;
    * its validity bit at b is [0 < n_b], so the sum of the bits read as floats is the number of valid samples;
    * its mask at (b, a) is [a < n_b] (the iota's word at a < 2048 is the integer a), so the masked sum over the two
      trailing axes at b is Σ_{a < 2048, f < 8} [a < n_b] · (P[b,a+1,f] − T[b,a+1,f])², the row sum;
    * for 0 < n_b ≤ 2048 the 32-bit product n_b · 8 does not wrap, it is at least 1, so max(n_b · 8, 1) = 8 n_b and the
      quotient is the row sum over 8 n_b; for n_b ≤ 0 the select returns 0 whatever the quotient is.

  The closing scalar arithmetic is the specification's, operation for operation.
-/
import proofs.«413703_j42777874268646_4_alg».proof.Proof.RunP
import proofs.«413703_j42777874268646_4_alg».proof.Proof.ReadP
import proofs.«413703_j42777874268646_4_alg».proof.Proof.Spec
import Idealize.ShloMosaic.Lib.ValueIdx
import Idealize.ShloMosaic.Lib.IdealHost
import Idealize.ShloMosaic.PureOps.Ideal.Laws

noncomputable section

namespace Cert.ReferenceIdeal.RefVal

open Cert.ReferenceIdeal Cert.ReferenceIdeal.Gen Cert.ReferenceIdeal.ReadP Cert.Spec
open Idealize.ShloMosaic Idealize.ShloMosaic.ValueIdx
open scoped BigOperators

/-! ## Sums over index sets, by coordinates -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Dropping the two trailing axes of a (4096, 2048, 8) index leaves its leading coordinate. -/
theorem drop_eq_ix1_iff (h : S4096x2048x8.ReducesTo [1, 2] S4096) (i : S4096x2048x8.Idx) (b : Fin 4096) :
    h.drop i = ix1 b ↔ (i 0).val = b.val := by
  have hv : (h.drop i 0 : Nat) = i 0 := Shape.ReducesTo.drop_apply_val_of_eq h i 0 0
  constructor
  · intro e
    exact hv.symm.trans (congrArg (fun j : S4096.Idx => (j 0).val) e)
  · intro e
    funext c
    match c with
    | ⟨0, _⟩ => exact Fin.ext (hv.trans e)

/-- An index whose leading coordinate is b is (b, its second coordinate, its third). -/
theorem ix3_of_lead (i : S4096x2048x8.Idx) (b : Fin 4096) (e : (i 0).val = b.val) :
    (ix3 b (⟨(i 1).val, (i 1).isLt⟩ : Fin 2048) (⟨(i 2).val, (i 2).isLt⟩ : Fin 8) : S4096x2048x8.Idx) = i := by
  funext c
  match c with
  | ⟨0, _⟩ => exact Fin.ext e.symm
  | ⟨1, _⟩ => rfl
  | ⟨2, _⟩ => rfl

/-- The indices that drop to b, summed, are the two trailing coordinates, summed. -/
theorem sum_filter_drop_row {M : Type} [AddCommMonoid M] (h : S4096x2048x8.ReducesTo [1, 2] S4096)
    (x : S4096x2048x8.Idx → M) (b : Fin 4096) [DecidablePred fun i : S4096x2048x8.Idx => h.drop i = ix1 b] :
    ∑ i ∈ Finset.univ.filter (fun i : S4096x2048x8.Idx => h.drop i = ix1 b), x i
      = ∑ a : Fin 2048, ∑ f : Fin 8, x (ix3 b a f) := by
  refine Eq.trans ?_ (Fintype.sum_prod_type' (fun (a : Fin 2048) (f : Fin 8) => x (ix3 b a f)))
  refine Finset.sum_nbij'
    (fun i => ((⟨(i 1).val, (i 1).isLt⟩ : Fin 2048), (⟨(i 2).val, (i 2).isLt⟩ : Fin 8)))
    (fun p => (ix3 b p.1 p.2 : S4096x2048x8.Idx)) ?_ ?_ ?_ ?_ ?_
  · intro i _; simp only [Finset.mem_univ]
  · intro p _
    exact Finset.mem_filter.2 ⟨Finset.mem_univ _, (drop_eq_ix1_iff h _ b).2 rfl⟩
  · intro i hi
    exact ix3_of_lead i b ((drop_eq_ix1_iff h i b).1 (Finset.mem_filter.1 hi).2)
  · intro p _; rfl
  · intro i hi
    exact congrArg x (ix3_of_lead i b ((drop_eq_ix1_iff h i b).1 (Finset.mem_filter.1 hi).2)).symm

/-- The host's sum over the two trailing axes, at sample b: the initial value plus the double sum. -/
theorem hostReduceAdd_rows (h : S4096x2048x8.ReducesTo [1, 2] S4096) (x : S4096x2048x8.Idx → EReal) (init : EReal)
    (b : Fin 4096) :
    Ideal.hostReduceAdd h x init (ix1 b) = init + ∑ a : Fin 2048, ∑ f : Fin 8, x (ix3 b a f) := by
  unfold Ideal.hostReduceAdd
  rw [sum_filter_drop_row]

/-! ## Words -/

/-- A one-bit word read as an unsigned float is 1 where the bit is set and 0 where it is not. -/
theorem uitofp_ofBool (p : Prop) [Decidable p] :
    (FloatOps.uitofp (F := Ideal) .f32 (BitVec.ofBool (decide p)) : EReal) = if p then 1 else 0 := by
  by_cases h : p
  · rw [if_pos h, decide_eq_true h]
    show (((BitVec.ofBool true).toNat : ℝ) : EReal) = 1
    simp
  · rw [if_neg h, decide_eq_false h]
    show (((BitVec.ofBool false).toNat : ℝ) : EReal) = 0
    simp

/-- A select on a decided bit is the `if`. -/
theorem select_ofBool {α : Type} (p : Prop) [Decidable p] (u v : α) :
    Scalar.select (BitVec.ofBool (decide p)) u v = if p then u else v := by
  by_cases h : p
  · rw [if_pos h, decide_eq_true h]; exact select_one u v
  · rw [if_neg h, decide_eq_false h]; exact select_zero u v

/-- "n is greater than zero", signed. -/
theorem cmpi_sgt_zero (n : BitVec 32) : IntOp.cmpi .sgt n 0#32 = BitVec.ofBool (decide (0 < n.toInt)) := by
  show BitVec.ofBool ((0#32).slt n) = _
  rw [BitVec.slt_eq_decide, BitVec.toInt_zero]

/-- The word of a natural number below 2048 is that number, read signed. -/
theorem toInt_ofNat_small (k : Nat) (hk : k < 2048) : (BitVec.ofNat 32 k).toInt = (k : ℤ) := by
  have h1 : (BitVec.ofNat 32 k).toNat = k := by
    rw [BitVec.toNat_ofNat]; exact Nat.mod_eq_of_lt (by omega)
  rw [BitVec.toInt_eq_toNat_cond, h1, if_pos (by omega)]

/-- "a is less than n", signed, for an iota's word a below 2048. -/
theorem cmpi_slt_iota (a : Fin 2048) (n : BitVec 32) :
    IntOp.cmpi .slt (BitVec.ofNat 32 a.val) n = BitVec.ofBool (decide ((a.val : ℤ) < n.toInt)) := by
  show BitVec.ofBool ((BitVec.ofNat 32 a.val).slt n) = _
  rw [BitVec.slt_eq_decide, toInt_ofNat_small a.val a.isLt]

/-- For 0 < n ≤ 2048 the 32-bit product n · 8 does not wrap. -/
theorem toInt_mul8 (n : BitVec 32) (h0 : 0 < n.toInt) (h1 : n.toInt ≤ 2048) : (n * 8#32).toInt = n.toInt * 8 := by
  have hn := BitVec.toInt_eq_toNat_cond n
  have hlt : n.toNat < 2 ^ 32 := n.isLt
  have h8 : (8#32 : BitVec 32).toNat = 8 := by decide
  have hm : (n * 8#32).toNat = n.toNat * 8 % 2 ^ 32 := by rw [BitVec.toNat_mul, h8]
  have hc := BitVec.toInt_eq_toNat_cond (n * 8#32)
  rw [hm] at hc
  split at hn <;> split at hc <;> omega

/-! ## The header entries -/

/-- The header slice then the reshape read entry (b, 0, 0) of the first input … -/
theorem idx_hdr0 (b : Fin 4096) : (idx_main_v0 (idx_main_v1 (ix1 b)) : S4096x2049x8.Idx) = ix3 b 0 0 := by
  funext c
  match c with
  | ⟨0, _⟩ => exact Fin.ext (Nat.div_one _)
  | ⟨1, _⟩ => rfl
  | ⟨2, _⟩ => rfl

/-- … and of the second. -/
theorem idx_hdr1 (b : Fin 4096) : (idx_main_v2 (idx_main_v3 (ix1 b)) : S4096x2049x8.Idx) = ix3 b 0 0 := by
  funext c
  match c with
  | ⟨0, _⟩ => exact Fin.ext (Nat.div_one _)
  | ⟨1, _⟩ => rfl
  | ⟨2, _⟩ => rfl

/-- The squared header difference at sample b. -/
theorem v7_at (x0 x1 : SIn.Idx → EReal) (b : Fin 4096) :
    val_main_v7 (F := Ideal) x0 x1 (ix1 b) = sqd x0 x1 b 0 0 := by
  rw [val_main_v7_apply, val_main_v6_apply, val_main_v1_apply, val_main_v3_apply, val_main_v0_apply,
    val_main_v2_apply, idx_hdr0, idx_hdr1]
  first | done | rfl

/-- The count term. -/
theorem v8_eq (x0 x1 : SIn.Idx → EReal) : val_main_v8 (F := Ideal) x0 x1 = fun _ => sCount x0 x1 := by
  funext i
  rw [val_main_v8_apply, val_main_cst_apply]
  simp only [Ideal.ofBits_def, Ideal.ofBits_zero_f32, zero_add]
  exact (sum_idx1 _).trans (Finset.sum_congr rfl fun b _ => v7_at x0 x1 b)

/-- The truncated count at sample b. -/
theorem v10_at (x1 : SIn.Idx → EReal) (b : Fin 4096) : val_main_v10 (F := Ideal) x1 (ix1 b) = cnt x1 b := by
  rw [val_main_v10_apply, val_main_v3_apply, val_main_v2_apply, idx_hdr1]
  first | done | rfl

/-- The validity bit at sample b. -/
theorem v12_at (x1 : SIn.Idx → EReal) (b : Fin 4096) :
    val_main_v12 (F := Ideal) x1 (ix1 b) = BitVec.ofBool (decide (0 < (cnt x1 b).toInt)) := by
  rw [val_main_v12_apply, v10_at, val_main_v11_apply, val_main_c_apply]
  exact cmpi_sgt_zero _

/-- The validity bit as a float. -/
theorem v33_at (x1 : SIn.Idx → EReal) (b : Fin 4096) :
    val_main_v33 (F := Ideal) x1 (ix1 b) = if 0 < (cnt x1 b).toInt then (1 : EReal) else 0 := by
  rw [val_main_v33_apply, v12_at]
  exact uitofp_ofBool _

/-- The number of valid samples. -/
theorem v34_eq (x1 : SIn.Idx → EReal) : val_main_v34 (F := Ideal) x1 = fun _ => nValid x1 := by
  funext i
  rw [val_main_v34_apply, val_main_cst_5_apply]
  simp only [Ideal.ofBits_def, Ideal.ofBits_zero_f32, zero_add]
  exact (sum_idx1 _).trans (Finset.sum_congr rfl fun b _ => v33_at x1 b)

/-! ## The action slots -/

/-- The action slice reads slot a + 1 of the first input … -/
theorem idx_act0 (b : Fin 4096) (a : Fin 2048) (f : Fin 8) :
    (idx_main_v4 (ix3 b a f) : S4096x2049x8.Idx) = ix3 b a.succ f := by
  funext c
  match c with
  | ⟨0, _⟩ => rfl
  | ⟨1, _⟩ => exact Fin.ext (by show 1 + a.val = a.val + 1; omega)
  | ⟨2, _⟩ => rfl

/-- … and of the second. -/
theorem idx_act1 (b : Fin 4096) (a : Fin 2048) (f : Fin 8) :
    (idx_main_v5 (ix3 b a f) : S4096x2049x8.Idx) = ix3 b a.succ f := by
  funext c
  match c with
  | ⟨0, _⟩ => rfl
  | ⟨1, _⟩ => exact Fin.ext (by show 1 + a.val = a.val + 1; omega)
  | ⟨2, _⟩ => rfl

/-- The mask at (b, a, f), as a float: 1 below the count, 0 from it on. -/
theorem v23_at (x1 : SIn.Idx → EReal) (b : Fin 4096) (a : Fin 2048) (f : Fin 8) :
    val_main_v23 (F := Ideal) x1 (ix3 b a f) = if (a.val : ℤ) < (cnt x1 b).toInt then (1 : EReal) else 0 := by
  rw [val_main_v23_apply, val_main_v22_apply, val_main_v21_apply, val_main_v18_apply, val_main_v16_apply,
    val_main_v14_apply, val_main_v13_apply, val_main_v17_apply, val_main_v15_apply]
  have e : (idx_main_v15 (idx_main_v17 (idx_main_v21 (idx_main_v23 (ix3 b a f)))) : S4096.Idx) = ix1 b := by
    funext c
    match c with
    | ⟨0, _⟩ => rfl
  rw [e, v10_at]
  exact (congrArg (FloatOps.uitofp (F := Ideal) .f32) (cmpi_slt_iota a (cnt x1 b))).trans (uitofp_ofBool _)

/-- The masked squared difference at (b, a, f). -/
theorem v24_at (x0 x1 : SIn.Idx → EReal) (b : Fin 4096) (a : Fin 2048) (f : Fin 8) :
    val_main_v24 (F := Ideal) x0 x1 (ix3 b a f)
      = if (a.val : ℤ) < (cnt x1 b).toInt then sqd x0 x1 b a.succ f else 0 := by
  rw [val_main_v24_apply, v23_at, val_main_v20_apply, val_main_v19_apply, val_main_v4_apply, val_main_v5_apply,
    idx_act0, idx_act1]
  by_cases h : (a.val : ℤ) < (cnt x1 b).toInt
  · rw [if_pos h, if_pos h]
    show sqd x0 x1 b a.succ f * (1 : EReal) = sqd x0 x1 b a.succ f
    exact mul_one _
  · rw [if_neg h, if_neg h]
    show sqd x0 x1 b a.succ f * (0 : EReal) = 0
    exact mul_zero _

/-- The masked sum over the two trailing axes, at sample b, is the row sum. -/
theorem v25_at (x0 x1 : SIn.Idx → EReal) (b : Fin 4096) :
    val_main_v25 (F := Ideal) x0 x1 (ix1 b) = rowSum x0 x1 b := by
  unfold val_main_v25
  rw [hostReduceAdd_apply, hostReduceAdd_rows, val_main_cst_1_apply]
  simp only [Ideal.ofBits_def, Ideal.ofBits_zero_f32, zero_add]
  exact Finset.sum_congr rfl fun a _ => Finset.sum_congr rfl fun f _ => v24_at x0 x1 b a f

/-! ## The per-sample error -/

/-- For a count in (0, 2048] the denominator max(n · 8, 1), the product taken in 32 bits, is 8 n. -/
theorem v30_at (x1 : SIn.Idx → EReal) (b : Fin 4096) (h0 : 0 < (cnt x1 b).toInt) (h1 : (cnt x1 b).toInt ≤ 2048) :
    val_main_v30 (F := Ideal) x1 (ix1 b) = ((((cnt x1 b).toInt * 8 : ℤ) : ℝ) : EReal) := by
  rw [val_main_v30_apply, val_main_v28_apply, val_main_v27_apply, v10_at, val_main_v26_apply, val_main_c_2_apply,
    val_main_v29_apply, val_main_cst_3_apply]
  show max ((((cnt x1 b * 8#32).toInt : ℤ) : ℝ) : EReal) (Ideal.ofBits .f32 0x3F800000#32) = _
  rw [Ideal.ofBits_one_f32, toInt_mul8 _ h0 h1]
  have hk : (1 : ℝ) ≤ (((cnt x1 b).toInt * 8 : ℤ) : ℝ) := by
    exact_mod_cast (by omega : (1 : ℤ) ≤ (cnt x1 b).toInt * 8)
  have hk' : (1 : EReal) ≤ ((((cnt x1 b).toInt * 8 : ℤ) : ℝ) : EReal) := by
    rw [← EReal.coe_one]; exact EReal.coe_le_coe_iff.2 hk
  exact max_eq_left hk'

/-- The per-sample error at sample b, for a count of at most 2048. -/
theorem v32_at (x0 x1 : SIn.Idx → EReal) (b : Fin 4096) (hb : (cnt x1 b).toInt ≤ 2048) :
    val_main_v32 (F := Ideal) x0 x1 (ix1 b) = mse x0 x1 b := by
  rw [val_main_v32_apply, v12_at, select_ofBool]
  unfold mse
  by_cases h : 0 < (cnt x1 b).toInt
  · rw [if_pos h, if_pos h, val_main_v31_apply, v25_at, v30_at x1 b h hb]
    first | done | rfl
  · rw [if_neg h, if_neg h, val_main_call0_v1_apply, val_main_call0_v0_apply, val_main_cst_4_apply]
    exact Ideal.ofBits_zero_f32

/-- The sum of the per-sample errors. -/
theorem v35_eq (x0 x1 : SIn.Idx → EReal) (hb : ∀ b, (cnt x1 b).toInt ≤ 2048) :
    val_main_v35 (F := Ideal) x0 x1 = fun _ => sAction x0 x1 := by
  funext i
  rw [val_main_v35_apply, val_main_cst_6_apply]
  simp only [Ideal.ofBits_def, Ideal.ofBits_zero_f32, zero_add]
  exact (sum_idx1 _).trans (Finset.sum_congr rfl fun b _ => v32_at x0 x1 b (hb b))

/-! ## The closing arithmetic and the result -/

/-- The last dozen operations are the specification's closing arithmetic of the three scalars. -/
theorem v42_eq_tail (x0 x1 : SIn.Idx → EReal) :
    val_main_v42 (F := Ideal) x0 x1
      = Cert.Spec.tail (F := Ideal) (val_main_v8 (F := Ideal) x0 x1) (val_main_v35 (F := Ideal) x0 x1)
          (val_main_v34 (F := Ideal) x1) := rfl

/-- THE REFERENCE'S VALUE: under the bound on the counts its final scalar is the specification's total. -/
theorem ref_total (x0 x1 : Cert.Spec.SIn.Idx → EReal) (hb : ∀ b, (Cert.Spec.cnt x1 b).toInt ≤ 2048) :
    Cert.ReferenceIdeal.ReadP.val_main_v42 (F := Ideal) x0 x1 = Cert.Spec.total x0 x1 := by
  have h := v42_eq_tail x0 x1
  rw [v8_eq x0 x1, v35_eq x0 x1 hb, v34_eq x1] at h
  exact h

end Cert.ReferenceIdeal.RefVal

end
-- ==== Proof.PreDecode.lean ====
/-
  The precondition's third conjunct, decoded: every sample's action count, truncated to a 32-bit integer,
  is at most 2048.

  The printed predicate is the conjunction  (all |P| < ∞  and  all |T| < ∞)  and  all (T[:, 0, 0] ≤ 2048).
  That it is one gives that its last conjunct is one; a conjunction over all samples that is one is one at
  each sample; the slice and the reshape read at sample b are entry (b, 0, 0) of the targets; the word
  0x45000000 is the real 2048; and the truncation of an extended real that is at most 2048 is an integer
  that is at most 2048.
-/
import proofs.«413703_j42777874268646_4_alg».proof.Pre_finite_inputs
import proofs.«413703_j42777874268646_4_alg».proof.Proof.Gen.Pre_finite_inputs
import proofs.«413703_j42777874268646_4_alg».proof.Proof.Spec
import proofs.«413703_j42777874268646_4_alg».proof.Proof.SpecLemmas
import Idealize.ShloMosaic.Lib.ReduceAll
import Idealize.ShloMosaic.Lib.Pipeline.Value
import Idealize.ShloMosaic.Lib.StableHlo.Predicate
import Idealize.ShloMosaic.Lib.ValueIdx
import Idealize.ShloMosaic.PureOps.Ideal.Laws

noncomputable section

namespace Cert.PreDecode

open Idealize.ShloMosaic Idealize.ShloMosaic.ValueIdx
open Cert.Pre_finite_inputs (S4096x2049x8 S4096x1x1 S4096 S_)

/-- The scalar shape has one index. -/
instance : Subsingleton S_.Idx := ⟨fun a b => funext fun d => d.elim0⟩

/-- The word `0x45000000` is the real 2048: exponent field 138, fraction 0, so 2²³ · 2^(138 − 127 − 23) = 2¹¹. -/
theorem ofBits_2048 : Ideal.ofBits .f32 0x45000000#32 = ((2048 : ℝ) : EReal) := by
  simp [Ideal.ofBits, Ideal.ieee, -EReal.coe_mul] <;> norm_num

/-- An ordered "less or equal" comparison of extended reals that is one says the order holds. -/
theorem le_of_cmp_ole {x y : EReal} (h : Ideal.cmp .ole x y = 1#1) : x ≤ y := by
  unfold Ideal.cmp at h
  have h' := (StableHlo.Predicate.ofBool_eq_one_iff _).1 h
  simpa using h'

/-- The slice `[0:4096, 0:1, 0:1]` of a (4096, 2049, 8) array, reshaped to a vector, read at `b`, is the
    array's entry (b, 0, 0): the reshape keeps the row-major position b·1·1 + 0·1 + 0 = b, and the slice's
    offsets are all zero. -/
theorem slice_read (T : S4096x2049x8.Idx → EReal) (hs : S4096x2049x8.Slices ![0, 0, 0] S4096x1x1)
    (hc : S4096x1x1.ShapeCasts S4096) (b : Fin 4096) :
    shapeCast S4096 (extractStridedSlice S4096x1x1 ![0, 0, 0] T hs) hc (ix1 b) = T (ix3 b 0 0) := by
  refine (shapeCast_apply _ hc (ix1 b) (ix3 b (0 : Fin 1) (0 : Fin 1)) ?_).trans ?_
  · rw [Shape.rowMajor_val_three, Shape.rowMajor_val_one]
    show (b.val * 1 + 0) * 1 + 0 = b.val
    omega
  · exact extractStridedSlice_apply _ T hs _ (ix3 b 0 0) fun a =>
      match a with
      | ⟨0, _⟩ => by show b.val = 0 + b.val; omega
      | ⟨1, _⟩ => by show 0 = 0 + 0; rfl
      | ⟨2, _⟩ => by show 0 = 0 + 0; rfl

/-- Under the precondition every sample's count is at most 2048. -/
theorem count_le (P T : Cert.Spec.SIn.Idx → EReal)
    (h : Cert.Pre_finite_inputs.fn (F := Ideal) P T = fun _ => 1#1) (b : Fin 4096) :
    (Cert.Spec.cnt T b).toInt ≤ 2048 := by
  -- the predicate at its one index is a conjunction of three; its last conjunct is the `all` over the samples
  have h0 := congrFun h ValueIdx.ix0
  dsimp only [Cert.Pre_finite_inputs.fn] at h0
  have h13 := (IntOp.andi_eq_one.1 h0).2
  -- an `all` that is one is one at sample `b`
  have hb := Host.reduce_andi_all _ _ _ _ _ h13 (ix1 b)
  -- at sample `b` the compared values are entry (b, 0, 0) of the targets and the real 2048
  have hcmp : Ideal.cmp .ole
      (shapeCast S4096 (extractStridedSlice S4096x1x1 ![0, 0, 0] T
        Cert.Pre_finite_inputs.Facts.slices_S4096x2049x8_S4096x1x1_0_0_0)
        Cert.Pre_finite_inputs.Facts.shapeCasts_S4096x1x1_S4096 (ix1 b))
      (Ideal.ofBits .f32 0x45000000#32) = 1#1 := hb
  have hle : T (ix3 b 0 0) ≤ ((2048 : ℝ) : EReal) := by
    have hx := le_of_cmp_ole hcmp
    rwa [ofBits_2048, slice_read] at hx
  exact Cert.Spec.fptosi_toInt_le _ hle

end Cert.PreDecode

end
-- ==== Proof.lean ====
/-
  The certificate's five claims.

  Both programs compute, from two arrays P, T of shape (4096, 2049, 8) whose entry T[b,0,0] is sample b's action
  count, the loss  1·(Σ_b (P[b,0,0]−T[b,0,0])² / 4096) + (V > 0 ? 2·(A / max(V,1)) : 0),  V the number of samples
  with a positive count and A the sum over those of the mean squared error of their first n_b action slots
  (Proof/Spec.lean).  The reference masks the 2048 action slots by a < n_b; the kernel flattens the last two axes
  to 16392 columns and masks column col by tbl[col] < n_b, where tbl[col] = (col−8)/8 on the action columns and
  2049 on the eight header columns: the two masks select the same entries exactly when n_b ≤ 2049, which the
  precondition's count bound T[b,0,0] ≤ 2048 gives.  The kernel accumulates three scalars per grid point into one
  slot of three small arrays, one 8-row block per core, and the host sums the arrays; the sums over points, rows
  and columns re-associate freely over the extended reals (an additive commutative monoid), so no finiteness is
  used.  The closing scalar arithmetic is the same in both programs, operation for operation.
-/
import proofs.«413703_j42777874268646_4_alg».proof.Defs
import proofs.«413703_j42777874268646_4_alg».proof.Proof.Gen.Kernel
import proofs.«413703_j42777874268646_4_alg».proof.Proof.Gen.Kernel.Frame
import proofs.«413703_j42777874268646_4_alg».proof.Proof.Gen.KernelIdeal
import proofs.«413703_j42777874268646_4_alg».proof.Proof.Gen.KernelIdeal.Frame
import proofs.«413703_j42777874268646_4_alg».proof.Proof.Gen.ReferenceIdeal
import proofs.«413703_j42777874268646_4_alg».proof.Proof.RunP
import proofs.«413703_j42777874268646_4_alg».proof.Proof.ReadP
import proofs.«413703_j42777874268646_4_alg».proof.Proof.Gen.Pre_finite_inputs
import proofs.«413703_j42777874268646_4_alg».proof.Proof.KTail
import proofs.«413703_j42777874268646_4_alg».proof.Proof.KSums
import proofs.«413703_j42777874268646_4_alg».proof.Proof.RefVal
import proofs.«413703_j42777874268646_4_alg».proof.Proof.PreDecode
import Idealize.ShloMosaic.Adequacy
import Idealize.ShloMosaic.Init

noncomputable section

namespace Cert.Proof

open Idealize.ShloMosaic Idealize.SL.Sem

/-- The word-level kernel's frame: generated whole. -/
theorem frame_k : Cert.frame_Kernel (hKernel := Cert.Kernel.Gen.facts) (hPre_finite_inputs := Cert.Pre_finite_inputs.Gen.facts) :=
  fun m ρ _ => Cert.Kernel.Gen.frame m ρ

/-- The idealized kernel's frame: generated whole. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- Both idealized programs end at `Spec.total` of the two argument arrays: the kernel by the three array sums,
    the reference by its operations read one at a time, both under the count bound the precondition states. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hb : ∀ (c : Dev Cert.KernelIdeal.nD) (b : Fin 4096),
      (Cert.Spec.cnt (Cert.KernelIdeal.KVal.T m c) b).toInt ≤ 2048 :=
    fun c b => Cert.PreDecode.count_le _ _ (hpre c) b
  refine ⟨fun c => Cert.Spec.total (Cert.KernelIdeal.KVal.P m c) (Cert.KernelIdeal.KVal.T m c), ?_, ?_⟩
  · refine (θ_run Cert.KernelIdeal.defs _ _).mono (fun _ h c => ⟨(h c).1.trans ?_, (h c).2.1, (h c).2.2⟩)
      (Cert.KernelIdeal.KVal.run_tail m ρ)
    rw [Cert.KernelIdeal.KVal.sum_arr3 m c, Cert.KernelIdeal.KVal.sum_arr4 m c (hb c), Cert.KernelIdeal.KVal.sum_arr5 m c]
    rfl
  · refine (θ_run Cert.ReferenceIdeal.defs _ _).mono (fun _ h c => ⟨(h c).1.trans ?_, (h c).2.1, (h c).2.2⟩)
      (Cert.ReferenceIdeal.ValueP.run (F := Ideal) m' ρ')
    rw [Cert.ReferenceIdeal.ReadP.val_main_v42_eq, (hagree c).1, (hagree c).2]
    exact Cert.ReferenceIdeal.RefVal.ref_total _ _ (hb c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
